-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2400x128 : Shape := ⟨2, ![2400, 128]⟩
abbrev S102400x128 : Shape := ⟨2, ![102400, 128]⟩
abbrev S1x128 : Shape := ⟨2, ![1, 128]⟩
abbrev S1280x128 : Shape := ⟨2, ![1280, 128]⟩
abbrev S100000x64 : Shape := ⟨2, ![100000, 64]⟩

abbrev nBuf : Space → Nat
  | .hbm => 116
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S128x128, .bf16⟩
  | .hbm, ⟨28, _⟩ => ⟨S128x128, .bf16⟩
  | .hbm, ⟨29, _⟩ => ⟨S128x128, .bf16⟩
  | .hbm, ⟨30, _⟩ => ⟨S128x128, .bf16⟩
  | .hbm, ⟨31, _⟩ => ⟨S128x128, .bf16⟩
  | .hbm, ⟨32, _⟩ => ⟨S128x128, .bf16⟩
  | .hbm, ⟨33, _⟩ => ⟨S_, .f32⟩
  | .hbm, ⟨34, _⟩ => ⟨S128x64, .f32⟩
  | .hbm, ⟨35, _⟩ => ⟨S128x128, .f32⟩
  | .hbm, ⟨36, _⟩ => ⟨S_, .f32⟩
  | .hbm, ⟨37, _⟩ => ⟨S64, .f32⟩
  | .hbm, ⟨38, _⟩ => ⟨S128, .f32⟩
  | .hbm, ⟨39, _⟩ => ⟨S128x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S2400x128, .f32⟩
  | .hbm, ⟨58, _⟩ => ⟨S102400x128, .f32⟩
  | .hbm, ⟨59, _⟩ => ⟨S_, .f32⟩
  | .hbm, ⟨60, _⟩ => ⟨S2400x128, .f32⟩
  | .hbm, ⟨61, _⟩ => ⟨S102400x128, .f32⟩
  | .hbm, ⟨62, _⟩ => ⟨S1x128, .f32⟩
  | .hbm, ⟨63, _⟩ => ⟨S102400x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S2400x128, .f32⟩
  | .hbm, ⟨83, _⟩ => ⟨S102400x128, .f32⟩
  | .hbm, ⟨84, _⟩ => ⟨S_, .f32⟩
  | .hbm, ⟨85, _⟩ => ⟨S2400x128, .f32⟩
  | .hbm, ⟨86, _⟩ => ⟨S102400x128, .f32⟩
  | .hbm, ⟨87, _⟩ => ⟨S1x128, .f32⟩
  | .hbm, ⟨88, _⟩ => ⟨S102400x128, .f32⟩
  | .hbm, ⟨89, _⟩ => ⟨S100000x128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000x1, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S2400x128, .f32⟩
  | .hbm, ⟨108, _⟩ => ⟨S102400x128, .f32⟩
  | .hbm, ⟨109, _⟩ => ⟨S_, .f32⟩
  | .hbm, ⟨110, _⟩ => ⟨S2400x128, .f32⟩
  | .hbm, ⟨111, _⟩ => ⟨S102400x128, .f32⟩
  | .hbm, ⟨112, _⟩ => ⟨S1x128, .f32⟩
  | .hbm, ⟨113, _⟩ => ⟨S1x128, .f32⟩
  | .hbm, ⟨114, _⟩ => ⟨S102400x128, .f32⟩
  | .hbm, ⟨115, _⟩ => ⟨S100000x64, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S1280x128, .f32⟩
  | .local _ .vmem, ⟨17, _⟩ => ⟨S1280x128, .f32⟩
  | .local _ .vmem, ⟨18, _⟩ => ⟨S1280x128, .f32⟩
  | .local _ .vmem, ⟨19, _⟩ => ⟨S1280x128, .f32⟩
  | .local _ .vmem, ⟨20, _⟩ => ⟨S1280x128, .f32⟩
  | .local _ .vmem, ⟨21, _⟩ => ⟨S1280x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S128x128, .bf16⟩
  | .local _ .vmem, ⟨26, _⟩ => ⟨S1x128, .f32⟩
  | .local _ .vmem, ⟨27, _⟩ => ⟨S1280x128, .f32⟩
  | .local _ .vmem, ⟨28, _⟩ => ⟨S1280x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 40], ![false, false]⟩

def cc1_transform_0 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1280x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 40], ![false, false]⟩

def cc2_transform_0 (i : grid2.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1280x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1280x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1280x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S128x64 : S_.BroadcastsInDim S128x64 (![] : Fin 0 → Fin S128x64.rank)
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S2400x128 : S_.BroadcastsInDim S2400x128 (![] : Fin 0 → Fin S2400x128.rank)
  concatenates_S100000x128_S2400x128_S102400x128_d0 : Shape.Concatenates [S100000x128, S2400x128] S102400x128 0
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  slices_S102400x128_S100000x128_0_0 : S102400x128.Slices ![0, 0] S100000x128
  slices_S102400x128_S100000x64_0_0 : S102400x128.Slices ![0, 0] S100000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1280x128_S128x128_S1280x128_1_0_0_1_n_n_wf : DotDims.WF S1280x128 S128x128 S1280x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S102400x128.size a
  hwx0_0 : ∀ i : grid0.Coords, EltTy.bits .f32 = 32 ∨ (Rect.block (s := S102400x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S102400x128.size a
  hwx0_1 : ∀ i : grid0.Coords, EltTy.bits .f32 = 32 ∨ (Rect.block (s := S102400x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x128.size a ≤ S102400x128.size a
  hwx0_5 : ∀ i : grid0.Coords, EltTy.bits .f32 = 32 ∨ (Rect.block (s := S102400x128) S1280x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S102400x128.size a
  hwx1_0 : ∀ i : grid1.Coords, EltTy.bits .f32 = 32 ∨ (Rect.block (s := S102400x128) S1280x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S102400x128.size a
  hwx1_1 : ∀ i : grid1.Coords, EltTy.bits .f32 = 32 ∨ (Rect.block (s := S102400x128) S1280x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1280x128.size a ≤ S102400x128.size a
  hwx1_5 : ∀ i : grid1.Coords, EltTy.bits .f32 = 32 ∨ (Rect.block (s := S102400x128) S1280x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x128.size a ≤ S102400x128.size a
  hwx2_0 : ∀ i : grid2.Coords, EltTy.bits .f32 = 32 ∨ (Rect.block (s := S102400x128) S1280x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x128.size a ≤ S102400x128.size a
  hwx2_1 : ∀ i : grid2.Coords, EltTy.bits .f32 = 32 ∨ (Rect.block (s := S102400x128) S1280x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1280x128.size a ≤ S102400x128.size a
  hwx2_7 : ∀ i : grid2.Coords, EltTy.bits .f32 = 32 ∨ (Rect.block (s := S102400x128) S1280x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_v32) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1280x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1280x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S1280x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1280x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S1280x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_cst : Ref sig .tc := ⟨.hbm, 49, rfl⟩
abbrev main_call1_v0 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call3_cst : Ref sig .tc := ⟨.hbm, 99, rfl⟩
abbrev main_call3_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, stated once over the extended reals.

  A mean-aggregating graph layer takes node features x (one row per node), the aggregated neighbour features a
  (one row per node), two 128 × 128 weight matrices and a bias row, and returns, row by row,
      max (x · Ws + a · Wn + b, 0).
  The classifier head is one more product with a 128 × N matrix plus a bias row. Both are written here index by
  index, for any number of rows M: a row of the result depends on the same row of x and a only, which is why the
  rows a kernel pads on and cuts off again do not matter.
-/
import Idealize.ShloMosaic.PureOps.Ideal.Laws
import Idealize.ShloMosaic.Lib.ValueIdx

noncomputable section

namespace Cert.Sage

open Idealize.ShloMosaic Idealize.ShloMosaic.ValueIdx

/-- One layer, row by row: entry (r, j) is max (∑ₖ x (r, k) · ws (k, j) + ∑ₖ a (r, k) · wn (k, j) + b j, 0). -/
def layer (M : Nat) (x a : (⟨2, ![M, 128]⟩ : Shape).Idx → EReal) (ws wn : (⟨2, ![128, 128]⟩ : Shape).Idx → EReal)
    (b : (⟨1, ![128]⟩ : Shape).Idx → EReal) : (⟨2, ![M, 128]⟩ : Shape).Idx → EReal := fun i =>
  max ((∑ k : Fin 128, x (ix2 (i 0) k) * ws (ix2 k (i 1))) + (∑ k : Fin 128, a (ix2 (i 0) k) * wn (ix2 k (i 1)))
    + b (ix1 (i 1))) 0

/-- The linear head, row by row: entry (r, j) is ∑ₖ h (r, k) · w (k, j) + b j. -/
def head (M N : Nat) (h : (⟨2, ![M, 128]⟩ : Shape).Idx → EReal) (w : (⟨2, ![128, N]⟩ : Shape).Idx → EReal)
    (b : (⟨1, ![N]⟩ : Shape).Idx → EReal) : (⟨2, ![M, N]⟩ : Shape).Idx → EReal := fun i =>
  (∑ k : Fin 128, h (ix2 (i 0) k) * w (ix2 k (i 1))) + b (ix1 (i 1))

/-- A layer's row r reads row r of its two feature operands only: two pairs of operands that agree on the first
    M' rows give layers that agree there. -/
theorem layer_rows {M M' : Nat} (x a : (⟨2, ![M, 128]⟩ : Shape).Idx → EReal) (x' a' : (⟨2, ![M', 128]⟩ : Shape).Idx → EReal)
    (ws wn : (⟨2, ![128, 128]⟩ : Shape).Idx → EReal) (b : (⟨1, ![128]⟩ : Shape).Idx → EReal)
    (r : Fin M) (r' : Fin M') (j : Fin 128)
    (hx : ∀ k : Fin 128, x (ix2 r k) = x' (ix2 r' k)) (ha : ∀ k : Fin 128, a (ix2 r k) = a' (ix2 r' k)) :
    layer M x a ws wn b (ix2 r j) = layer M' x' a' ws wn b (ix2 r' j) := by
  unfold layer
  have e0 : (ix2 r j : (⟨2, ![M, 128]⟩ : Shape).Idx) 0 = r := rfl
  have e1 : (ix2 r j : (⟨2, ![M, 128]⟩ : Shape).Idx) 1 = j := rfl
  have e0' : (ix2 r' j : (⟨2, ![M', 128]⟩ : Shape).Idx) 0 = r' := rfl
  have e1' : (ix2 r' j : (⟨2, ![M', 128]⟩ : Shape).Idx) 1 = j := rfl
  simp only [e0, e1, e0', e1', hx, ha]

/-- The head's row r reads row r of its feature operand only. -/
theorem head_rows {M M' N : Nat} (h : (⟨2, ![M, 128]⟩ : Shape).Idx → EReal) (h' : (⟨2, ![M', 128]⟩ : Shape).Idx → EReal)
    (w : (⟨2, ![128, N]⟩ : Shape).Idx → EReal) (b : (⟨1, ![N]⟩ : Shape).Idx → EReal)
    (r : Fin M) (r' : Fin M') (j : Fin N) (hh : ∀ k : Fin 128, h (ix2 r k) = h' (ix2 r' k)) :
    head M N h w b (ix2 r j) = head M' N h' w b (ix2 r' j) := by
  unfold head
  have e0 : (ix2 r j : (⟨2, ![M, N]⟩ : Shape).Idx) 0 = r := rfl
  have e1 : (ix2 r j : (⟨2, ![M, N]⟩ : Shape).Idx) 1 = j := rfl
  have e0' : (ix2 r' j : (⟨2, ![M', N]⟩ : Shape).Idx) 0 = r' := rfl
  have e1' : (ix2 r' j : (⟨2, ![M', N]⟩ : Shape).Idx) 1 = j := rfl
  simp only [e0, e1, e0', e1', hh]

end Cert.Sage

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Region0.lean ====
/-
  Region 0 of the kernel's program, read as mathematics: one graph layer's call.

  The call runs its body at 80 grid points. At point t the body loads rows [1280·t, 1280·t + 1280) of the node features
  and of the aggregated neighbour features, the two 128 × 128 weights and the bias row whole, and stores
      max (x · Ws + a · Wn + b, 0)
  into rows [1280·t, 1280·t + 1280) of the output. Below: the body's arithmetic at an index is one layer of the loaded
  blocks; a layer's row reads the same row of its feature operands only, so what point t writes back is block t of the layer
  of the whole arrays; the 80 row blocks tile the 102400 rows; hence the output array ends as the layer of the input arrays.
-/
import proofs.«420383_j87892210745356_4_alg».proof.Proof.Gen.KernelIdeal.Frame
import proofs.«420383_j87892210745356_4_alg».proof.Proof.Spec
import proofs.«420383_j87892210745356_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The printed dimension numbers of the body's two products are the plain ones: rows by contraction times contraction by columns. -/
theorem dot_plain : dot_S1280x128_S128x128_S1280x128_1_0_0_1_n_n = DotDims.plain 1280 128 128 := rfl

/-- One product of the body, read at (r, j): the block's row r against column j of the weight. -/
theorem prod_apply (x : FVec Ideal S1280x128 .f32) (w : FVec Ideal S128x128 .bf16) (r : Fin 1280) (j : Fin 128) :
    FloatOps.matmul (F := Ideal) dot_S1280x128_S128x128_S1280x128_1_0_0_1_n_n none
        (truncf .bf16 (shapeCast S1280x128 x shapeCasts_S1280x128_S1280x128) bitsLt_bf16_f32)
        (shapeCast S128x128 w shapeCasts_S128x128_S128x128) (constant (F := Ideal) S1280x128 .f32 0x00000000#32) (ix2 r j)
      = ∑ k : Fin 128, x (ix2 r k) * w (ix2 k j) := by
  rw [shapeCast_self, shapeCast_self, dot_plain]
  exact Cert.Lib.PlainDot.matmul_plain_zero_ix2 1280 128 128 none (truncf .bf16 x bitsLt_bf16_f32) w r j

/-- The bias row spread over the block's rows, read at (r, j): the row's entry j. -/
theorem bias_apply (b : FVec Ideal S1x128 .f32) (r : Fin 1280) (j : Fin 128) :
    broadcastTo S1280x128 (shapeCast S1x128 b shapeCasts_S1x128_S1x128) broadcasts_S1x128_S1280x128 (ix2 r j) = b (ix2 0 j) := by
  rw [shapeCast_self]
  refine broadcastTo_apply b broadcasts_S1x128_S1280x128 (ix2 r j) (ix2 0 j) fun a => ?_
  match a with
  | ⟨0, _⟩ => rfl
  | ⟨1, _⟩ => rfl

/-- THE BODY'S ARITHMETIC AT AN INDEX: the block the body stores is one layer of the blocks it loaded. -/
theorem pay_apply (x0 x1 : Vec Ideal S1280x128 .f32) (x2 x3 : Vec Ideal S128x128 .bf16) (x4 : Vec Ideal S1x128 .f32)
    (r : Fin 1280) (j : Fin 128) :
    k0_pay1 (F := Ideal) x0 x1 x2 x3 x4 (ix2 r j)
      = Cert.Sage.layer 1280 x0 x1 x2 x3 (fun q => x4 (ix2 0 (q 0))) (ix2 r j) := by
  unfold k0_pay1 Cert.Sage.layer
  show max (FloatOps.matmul (F := Ideal) dot_S1280x128_S128x128_S1280x128_1_0_0_1_n_n none
        (truncf .bf16 (shapeCast S1280x128 x0 shapeCasts_S1280x128_S1280x128) bitsLt_bf16_f32)
        (shapeCast S128x128 x2 shapeCasts_S128x128_S128x128) (constant (F := Ideal) S1280x128 .f32 0x00000000#32) (ix2 r j)
      + FloatOps.matmul (F := Ideal) dot_S1280x128_S128x128_S1280x128_1_0_0_1_n_n none
        (truncf .bf16 (shapeCast S1280x128 x1 shapeCasts_S1280x128_S1280x128) bitsLt_bf16_f32)
        (shapeCast S128x128 x3 shapeCasts_S128x128_S128x128) (constant (F := Ideal) S1280x128 .f32 0x00000000#32) (ix2 r j)
      + broadcastTo S1280x128 (shapeCast S1x128 x4 shapeCasts_S1x128_S1x128) broadcasts_S1x128_S1280x128 (ix2 r j))
      (Ideal.ofBits .f32 0x00000000#32) = _
  rw [prod_apply, prod_apply, bias_apply, Ideal.ofBits_zero_f32]

/-- The body's block against the whole arrays: when row r of the two loaded feature blocks is row R of the two feature
    arrays and the loaded weights and bias row are the arrays themselves, entry (r, j) of what the body stores is entry
    (R, j) of the layer of the arrays. -/
theorem block_layer (x0 x1 : FVec Ideal S1280x128 .f32) (x2 x3 : FVec Ideal S128x128 .bf16) (x4 : FVec Ideal S1x128 .f32)
    (A0 A1 : (⟨2, ![102400, 128]⟩ : Shape).Idx → EReal) (W0 W1 : (⟨2, ![128, 128]⟩ : Shape).Idx → EReal)
    (B : (⟨2, ![1, 128]⟩ : Shape).Idx → EReal) (r : Fin 1280) (R : Fin 102400) (j : Fin 128)
    (h0 : ∀ k : Fin 128, x0 (ix2 r k) = A0 (ix2 R k)) (h1 : ∀ k : Fin 128, x1 (ix2 r k) = A1 (ix2 R k))
    (h2 : x2 = W0) (h3 : x3 = W1) (h4 : x4 = B) :
    k0_pay1 (F := Ideal) x0 x1 x2 x3 x4 (ix2 r j)
      = Cert.Sage.layer 102400 A0 A1 W0 W1 (fun q => B (ix2 0 (q 0))) (ix2 R j) := by
  subst h2 h3 h4
  exact (pay_apply x0 x1 x2 x3 x4 r j).trans
    (Cert.Sage.layer_rows x0 x1 A0 A1 x2 x3 (fun q => x4 (ix2 0 (q 0))) r R j h0 h1)

variable (V : (c : Dev nD) → (b : Ref sig .tc) → Buf (Elt Ideal) ((c : Thread nD τ).loc b))

/-- The body's rectangles start at the origin. -/
theorem origin : (![0, 0] : Fin 2 → Nat) = fun _ => 0 :=
  funext fun a => match a with | ⟨0, _⟩ => rfl | ⟨1, _⟩ => rfl

/-- The printed index maps over the 80 grid points: the output and the two feature windows sit on the row block whose
    number is the point's own, and the two weights and the bias row are whole arrays (block index zero). -/
theorem index_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A point is one of 80. -/
theorem point_lt (t : Fin cfg0.N) : t.val < 80 := by
  have h : t.val < grid0.N := t.isLt
  rw [N_0] at h
  exact h

/-- Row r of the first feature window's block at point t is row 1280·t + r of its array. -/
theorem feat0_row (c : Dev nD) (t : Fin cfg0.N) (r : Fin 1280) (k : Fin 128) (h : t.val * 1280 + r.val < 102400) :
    iblk0 V c 0 t (ix2 r k) = V c (Pipeline.arrRef spec0 0) (ix2 (⟨t.val * 1280 + r.val, h⟩ : Fin 102400) k) := by
  obtain ⟨-, -, e0, e1, -⟩ := index_facts t
  show V c (Pipeline.arrRef spec0 0) (((cfg0.win 0).blk t).view.emb (ix2 r k)) = _
  refine congrArg (V c (Pipeline.arrRef spec0 0)) (funext fun a => Fin.ext ?_)
  match a with
  | ⟨0, _⟩ => show win0_0.index t (0 : Fin 2) * 1280 + 1 * r.val = t.val * 1280 + r.val; omega
  | ⟨1, _⟩ => show win0_0.index t (1 : Fin 2) * 128 + 1 * k.val = k.val; omega

/-- Row r of the second feature window's block at point t is row 1280·t + r of its array. -/
theorem feat1_row (c : Dev nD) (t : Fin cfg0.N) (r : Fin 1280) (k : Fin 128) (h : t.val * 1280 + r.val < 102400) :
    iblk0 V c 1 t (ix2 r k) = V c (Pipeline.arrRef spec0 1) (ix2 (⟨t.val * 1280 + r.val, h⟩ : Fin 102400) k) := by
  obtain ⟨-, -, -, -, e0, e1, -⟩ := index_facts t
  show V c (Pipeline.arrRef spec0 1) (((cfg0.win 1).blk t).view.emb (ix2 r k)) = _
  refine congrArg (V c (Pipeline.arrRef spec0 1)) (funext fun a => Fin.ext ?_)
  match a with
  | ⟨0, _⟩ => show win0_1.index t (0 : Fin 2) * 1280 + 1 * r.val = t.val * 1280 + r.val; omega
  | ⟨1, _⟩ => show win0_1.index t (1 : Fin 2) * 128 + 1 * k.val = k.val; omega

/-- The first weight's window is its whole array at every point. -/
theorem weight0_whole (c : Dev nD) (t : Fin cfg0.N) :
    (iblk0 V c 2 t : S128x128.Idx → EReal) = V c (Pipeline.arrRef spec0 2) := by
  obtain ⟨-, -, -, -, -, -, e0, e1, -⟩ := index_facts t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight's window is its whole array at every point. -/
theorem weight1_whole (c : Dev nD) (t : Fin cfg0.N) :
    (iblk0 V c 3 t : S128x128.Idx → EReal) = V c (Pipeline.arrRef spec0 3) := by
  obtain ⟨-, -, -, -, -, -, -, -, e0, e1, -⟩ := index_facts t
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's window is its whole array at every point. -/
theorem bias_whole (c : Dev nD) (t : Fin cfg0.N) :
    (iblk0 V c 4 t : S1x128.Idx → EReal) = V c (Pipeline.arrRef spec0 4) := by
  obtain ⟨-, -, -, -, -, -, -, -, -, -, e0, e1⟩ := index_facts t
  funext y
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry (r, j) of the output window's block at point t is entry (1280·t + r, j) of its array. -/
theorem out_row (t : Fin cfg0.N) (r : Fin 1280) (j : Fin 128) (h : t.val * 1280 + r.val < 102400) :
    ((cfg0.win 5).blk t).view.emb (ix2 r j) = ix2 (⟨t.val * 1280 + r.val, h⟩ : Fin 102400) j := by
  obtain ⟨e0, e1, -⟩ := index_facts t
  refine funext fun a => Fin.ext ?_
  match a with
  | ⟨0, _⟩ => show win0_5.index t (0 : Fin 2) * 1280 + 1 * r.val = t.val * 1280 + r.val; omega
  | ⟨1, _⟩ => show win0_5.index t (1 : Fin 2) * 128 + 1 * j.val = j.val; omega

set_option maxHeartbeats 400000 in
/-- WHAT POINT t WRITES BACK is block t of the layer of the region's five input arrays: a layer's row reads the same row
    of its two feature operands only, and the block's row r is the arrays' row 1280·t + r. -/
theorem flushed_eq (c : Dev nD) (t : Fin cfg0.N) :
    (dat0 (F := Ideal) V c).flushed 5 t
      = ((cfg0.win 5).blk t).view.read (Elt Ideal)
          (Cert.Sage.layer 102400 (V c (Pipeline.arrRef spec0 0)) (V c (Pipeline.arrRef spec0 1))
            (V c (Pipeline.arrRef spec0 2)) (V c (Pipeline.arrRef spec0 3))
            (fun j => V c (Pipeline.arrRef spec0 4) (ix2 0 (j 0)))) := by
  show (cfg0.win 5).cut (grid0.coords t) ((dat0 V c).after 5 t) = _
  rw [after0_5]
  unfold out0_5
  rw [View.canon_unit_zero origin]
  simp only [View.ld_unit_zero (S := S1280x128) origin, View.ld_unit_zero (S := S128x128) origin,
    View.ld_unit_zero (S := S1x128) origin]
  have ht := point_lt t
  refine funext fun (y : S1280x128.Idx) => ?_
  obtain ⟨r, j, rfl⟩ : ∃ (r : Fin 1280) (j : Fin 128), y = ix2 r j := ⟨y 0, y 1, eq_ix2 y⟩
  have hr : t.val * 1280 + r.val < 102400 := by have := r.isLt; omega
  show k0_pay1 (F := Ideal) (iblk0 V c 0 t) (iblk0 V c 1 t) (iblk0 V c 2 t) (iblk0 V c 3 t) (iblk0 V c 4 t) (ix2 r j)
      = Cert.Sage.layer 102400 (V c (Pipeline.arrRef spec0 0)) (V c (Pipeline.arrRef spec0 1))
          (V c (Pipeline.arrRef spec0 2)) (V c (Pipeline.arrRef spec0 3))
          (fun j => V c (Pipeline.arrRef spec0 4) (ix2 0 (j 0))) (((cfg0.win 5).blk t).view.emb (ix2 r j))
  rw [out_row t r j hr]
  exact block_layer (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) r ⟨t.val * 1280 + r.val, hr⟩ j
    (fun k => feat0_row V c t r k hr) (fun k => feat1_row V c t r k hr)
    (weight0_whole V c t) (weight1_whole V c t) (bias_whole V c t)

/-- An index of the output array is in point t's block iff each coordinate is in the block's range on its axis. -/
theorem mem_blk (t : Fin cfg0.N) (i : S102400x128.Idx) :
    i ∈ ((cfg0.win 5).blk t).view.set
      ↔ ∀ a : Fin 2, win0_5.index t a * S1280x128.size a ≤ (i a).val
          ∧ (i a).val < win0_5.index t a * S1280x128.size a + S1280x128.size a := by
  show i ∈ ((View.whole main_v36).slice (win0_5.rect t)).set ↔ _
  rw [View.set_slice_whole, Rect.mem_set_unit]
  exact Iff.rfl

/-- THE BLOCKS TILE THE ARRAY: row r lies in the block of the point r / 1280. -/
theorem cover (i : S102400x128.Idx) :
    ∃ t : Fin cfg0.N, (cfg0.win 5).flush t = true ∧ i ∈ ((cfg0.win 5).blk t).view.set := by
  have hi0 : (i 0).val < 102400 := idx2_lt0 i
  have hi1 : (i 1).val < 128 := idx2_lt1 i
  obtain ⟨t, ht⟩ : ∃ t : Fin cfg0.N, t.val = (i 0).val / 1280 :=
    ⟨⟨(i 0).val / 1280, by show _ < grid0.N; rw [N_0]; omega⟩, rfl⟩
  obtain ⟨e0, e1, -⟩ := index_facts t
  refine ⟨t, flush0_5 t, ?_⟩
  rw [mem_blk]
  intro a
  match a with
  | ⟨0, _⟩ =>
    show win0_5.index t (0 : Fin 2) * 1280 ≤ (i 0).val ∧ (i 0).val < win0_5.index t (0 : Fin 2) * 1280 + 1280
    omega
  | ⟨1, _⟩ =>
    show win0_5.index t (1 : Fin 2) * 128 ≤ (i 1).val ∧ (i 1).val < win0_5.index t (1 : Fin 2) * 128 + 128
    omega

/-- THE OUTPUT ARRAY after all 80 points is one layer of the region's input arrays. -/
theorem final (c : Dev nD) :
    (dat0 (F := Ideal) V c).arrAt 5 cfg0.N
      = Cert.Sage.layer 102400 (V c (Pipeline.arrRef spec0 0)) (V c (Pipeline.arrRef spec0 1))
          (V c (Pipeline.arrRef spec0 2)) (V c (Pipeline.arrRef spec0 3))
          (fun j => V c (Pipeline.arrRef spec0 4) (ix2 0 (j 0))) :=
  (dat0 (F := Ideal) V c).arrAt_eq_of_cover 5 _ (fun t _ => flushed_eq V c t) cover

end Cert.KernelIdeal.Region0

end
-- ==== Proof.Region1.lean ====
/-
  Region 1 of the kernel's program, read as mathematics: one graph layer's call.

  The call runs its body at 80 grid points. At point t the body loads rows [1280·t, 1280·t + 1280) of the node features
  and of the aggregated neighbour features, the two 128 × 128 weights and the bias row whole, and stores
      max (x · Ws + a · Wn + b, 0)
  into rows [1280·t, 1280·t + 1280) of the output. Below: the body's arithmetic at an index is one layer of the loaded
  blocks; a layer's row reads the same row of its feature operands only, so what point t writes back is block t of the layer
  of the whole arrays; the 80 row blocks tile the 102400 rows; hence the output array ends as the layer of the input arrays.
-/
import proofs.«420383_j87892210745356_4_alg».proof.Proof.Gen.KernelIdeal.Frame
import proofs.«420383_j87892210745356_4_alg».proof.Proof.Spec
import proofs.«420383_j87892210745356_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The printed dimension numbers of the body's two products are the plain ones: rows by contraction times contraction by columns. -/
theorem dot_plain : dot_S1280x128_S128x128_S1280x128_1_0_0_1_n_n = DotDims.plain 1280 128 128 := rfl

/-- One product of the body, read at (r, j): the block's row r against column j of the weight. -/
theorem prod_apply (x : FVec Ideal S1280x128 .f32) (w : FVec Ideal S128x128 .bf16) (r : Fin 1280) (j : Fin 128) :
    FloatOps.matmul (F := Ideal) dot_S1280x128_S128x128_S1280x128_1_0_0_1_n_n none
        (truncf .bf16 (shapeCast S1280x128 x shapeCasts_S1280x128_S1280x128) bitsLt_bf16_f32)
        (shapeCast S128x128 w shapeCasts_S128x128_S128x128) (constant (F := Ideal) S1280x128 .f32 0x00000000#32) (ix2 r j)
      = ∑ k : Fin 128, x (ix2 r k) * w (ix2 k j) := by
  rw [shapeCast_self, shapeCast_self, dot_plain]
  exact Cert.Lib.PlainDot.matmul_plain_zero_ix2 1280 128 128 none (truncf .bf16 x bitsLt_bf16_f32) w r j

/-- The bias row spread over the block's rows, read at (r, j): the row's entry j. -/
theorem bias_apply (b : FVec Ideal S1x128 .f32) (r : Fin 1280) (j : Fin 128) :
    broadcastTo S1280x128 (shapeCast S1x128 b shapeCasts_S1x128_S1x128) broadcasts_S1x128_S1280x128 (ix2 r j) = b (ix2 0 j) := by
  rw [shapeCast_self]
  refine broadcastTo_apply b broadcasts_S1x128_S1280x128 (ix2 r j) (ix2 0 j) fun a => ?_
  match a with
  | ⟨0, _⟩ => rfl
  | ⟨1, _⟩ => rfl

/-- THE BODY'S ARITHMETIC AT AN INDEX: the block the body stores is one layer of the blocks it loaded. -/
theorem pay_apply (x0 x1 : Vec Ideal S1280x128 .f32) (x2 x3 : Vec Ideal S128x128 .bf16) (x4 : Vec Ideal S1x128 .f32)
    (r : Fin 1280) (j : Fin 128) :
    k1_pay1 (F := Ideal) x0 x1 x2 x3 x4 (ix2 r j)
      = Cert.Sage.layer 1280 x0 x1 x2 x3 (fun q => x4 (ix2 0 (q 0))) (ix2 r j) := by
  unfold k1_pay1 Cert.Sage.layer
  show max (FloatOps.matmul (F := Ideal) dot_S1280x128_S128x128_S1280x128_1_0_0_1_n_n none
        (truncf .bf16 (shapeCast S1280x128 x0 shapeCasts_S1280x128_S1280x128) bitsLt_bf16_f32)
        (shapeCast S128x128 x2 shapeCasts_S128x128_S128x128) (constant (F := Ideal) S1280x128 .f32 0x00000000#32) (ix2 r j)
      + FloatOps.matmul (F := Ideal) dot_S1280x128_S128x128_S1280x128_1_0_0_1_n_n none
        (truncf .bf16 (shapeCast S1280x128 x1 shapeCasts_S1280x128_S1280x128) bitsLt_bf16_f32)
        (shapeCast S128x128 x3 shapeCasts_S128x128_S128x128) (constant (F := Ideal) S1280x128 .f32 0x00000000#32) (ix2 r j)
      + broadcastTo S1280x128 (shapeCast S1x128 x4 shapeCasts_S1x128_S1x128) broadcasts_S1x128_S1280x128 (ix2 r j))
      (Ideal.ofBits .f32 0x00000000#32) = _
  rw [prod_apply, prod_apply, bias_apply, Ideal.ofBits_zero_f32]

/-- The body's block against the whole arrays: when row r of the two loaded feature blocks is row R of the two feature
    arrays and the loaded weights and bias row are the arrays themselves, entry (r, j) of what the body stores is entry
    (R, j) of the layer of the arrays. -/
theorem block_layer (x0 x1 : FVec Ideal S1280x128 .f32) (x2 x3 : FVec Ideal S128x128 .bf16) (x4 : FVec Ideal S1x128 .f32)
    (A0 A1 : (⟨2, ![102400, 128]⟩ : Shape).Idx → EReal) (W0 W1 : (⟨2, ![128, 128]⟩ : Shape).Idx → EReal)
    (B : (⟨2, ![1, 128]⟩ : Shape).Idx → EReal) (r : Fin 1280) (R : Fin 102400) (j : Fin 128)
    (h0 : ∀ k : Fin 128, x0 (ix2 r k) = A0 (ix2 R k)) (h1 : ∀ k : Fin 128, x1 (ix2 r k) = A1 (ix2 R k))
    (h2 : x2 = W0) (h3 : x3 = W1) (h4 : x4 = B) :
    k1_pay1 (F := Ideal) x0 x1 x2 x3 x4 (ix2 r j)
      = Cert.Sage.layer 102400 A0 A1 W0 W1 (fun q => B (ix2 0 (q 0))) (ix2 R j) := by
  subst h2 h3 h4
  exact (pay_apply x0 x1 x2 x3 x4 r j).trans
    (Cert.Sage.layer_rows x0 x1 A0 A1 x2 x3 (fun q => x4 (ix2 0 (q 0))) r R j h0 h1)

variable (V : (c : Dev nD) → (b : Ref sig .tc) → Buf (Elt Ideal) ((c : Thread nD τ).loc b))

/-- The body's rectangles start at the origin. -/
theorem origin : (![0, 0] : Fin 2 → Nat) = fun _ => 0 :=
  funext fun a => match a with | ⟨0, _⟩ => rfl | ⟨1, _⟩ => rfl

/-- The printed index maps over the 80 grid points: the output and the two feature windows sit on the row block whose
    number is the point's own, and the two weights and the bias row are whole arrays (block index zero). -/
theorem index_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A point is one of 80. -/
theorem point_lt (t : Fin cfg1.N) : t.val < 80 := by
  have h : t.val < grid1.N := t.isLt
  rw [N_1] at h
  exact h

/-- Row r of the first feature window's block at point t is row 1280·t + r of its array. -/
theorem feat0_row (c : Dev nD) (t : Fin cfg1.N) (r : Fin 1280) (k : Fin 128) (h : t.val * 1280 + r.val < 102400) :
    iblk1 V c 0 t (ix2 r k) = V c (Pipeline.arrRef spec1 0) (ix2 (⟨t.val * 1280 + r.val, h⟩ : Fin 102400) k) := by
  obtain ⟨-, -, e0, e1, -⟩ := index_facts t
  show V c (Pipeline.arrRef spec1 0) (((cfg1.win 0).blk t).view.emb (ix2 r k)) = _
  refine congrArg (V c (Pipeline.arrRef spec1 0)) (funext fun a => Fin.ext ?_)
  match a with
  | ⟨0, _⟩ => show win1_0.index t (0 : Fin 2) * 1280 + 1 * r.val = t.val * 1280 + r.val; omega
  | ⟨1, _⟩ => show win1_0.index t (1 : Fin 2) * 128 + 1 * k.val = k.val; omega

/-- Row r of the second feature window's block at point t is row 1280·t + r of its array. -/
theorem feat1_row (c : Dev nD) (t : Fin cfg1.N) (r : Fin 1280) (k : Fin 128) (h : t.val * 1280 + r.val < 102400) :
    iblk1 V c 1 t (ix2 r k) = V c (Pipeline.arrRef spec1 1) (ix2 (⟨t.val * 1280 + r.val, h⟩ : Fin 102400) k) := by
  obtain ⟨-, -, -, -, e0, e1, -⟩ := index_facts t
  show V c (Pipeline.arrRef spec1 1) (((cfg1.win 1).blk t).view.emb (ix2 r k)) = _
  refine congrArg (V c (Pipeline.arrRef spec1 1)) (funext fun a => Fin.ext ?_)
  match a with
  | ⟨0, _⟩ => show win1_1.index t (0 : Fin 2) * 1280 + 1 * r.val = t.val * 1280 + r.val; omega
  | ⟨1, _⟩ => show win1_1.index t (1 : Fin 2) * 128 + 1 * k.val = k.val; omega

/-- The first weight's window is its whole array at every point. -/
theorem weight0_whole (c : Dev nD) (t : Fin cfg1.N) :
    (iblk1 V c 2 t : S128x128.Idx → EReal) = V c (Pipeline.arrRef spec1 2) := by
  obtain ⟨-, -, -, -, -, -, e0, e1, -⟩ := index_facts t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight's window is its whole array at every point. -/
theorem weight1_whole (c : Dev nD) (t : Fin cfg1.N) :
    (iblk1 V c 3 t : S128x128.Idx → EReal) = V c (Pipeline.arrRef spec1 3) := by
  obtain ⟨-, -, -, -, -, -, -, -, e0, e1, -⟩ := index_facts t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's window is its whole array at every point. -/
theorem bias_whole (c : Dev nD) (t : Fin cfg1.N) :
    (iblk1 V c 4 t : S1x128.Idx → EReal) = V c (Pipeline.arrRef spec1 4) := by
  obtain ⟨-, -, -, -, -, -, -, -, -, -, e0, e1⟩ := index_facts t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry (r, j) of the output window's block at point t is entry (1280·t + r, j) of its array. -/
theorem out_row (t : Fin cfg1.N) (r : Fin 1280) (j : Fin 128) (h : t.val * 1280 + r.val < 102400) :
    ((cfg1.win 5).blk t).view.emb (ix2 r j) = ix2 (⟨t.val * 1280 + r.val, h⟩ : Fin 102400) j := by
  obtain ⟨e0, e1, -⟩ := index_facts t
  refine funext fun a => Fin.ext ?_
  match a with
  | ⟨0, _⟩ => show win1_5.index t (0 : Fin 2) * 1280 + 1 * r.val = t.val * 1280 + r.val; omega
  | ⟨1, _⟩ => show win1_5.index t (1 : Fin 2) * 128 + 1 * j.val = j.val; omega

set_option maxHeartbeats 400000 in
/-- WHAT POINT t WRITES BACK is block t of the layer of the region's five input arrays: a layer's row reads the same row
    of its two feature operands only, and the block's row r is the arrays' row 1280·t + r. -/
theorem flushed_eq (c : Dev nD) (t : Fin cfg1.N) :
    (dat1 (F := Ideal) V c).flushed 5 t
      = ((cfg1.win 5).blk t).view.read (Elt Ideal)
          (Cert.Sage.layer 102400 (V c (Pipeline.arrRef spec1 0)) (V c (Pipeline.arrRef spec1 1))
            (V c (Pipeline.arrRef spec1 2)) (V c (Pipeline.arrRef spec1 3))
            (fun j => V c (Pipeline.arrRef spec1 4) (ix2 0 (j 0)))) := by
  show (cfg1.win 5).cut (grid1.coords t) ((dat1 V c).after 5 t) = _
  rw [after1_5]
  unfold out1_5
  rw [View.canon_unit_zero origin]
  simp only [View.ld_unit_zero (S := S1280x128) origin, View.ld_unit_zero (S := S128x128) origin,
    View.ld_unit_zero (S := S1x128) origin]
  have ht := point_lt t
  refine funext fun (y : S1280x128.Idx) => ?_
  obtain ⟨r, j, rfl⟩ : ∃ (r : Fin 1280) (j : Fin 128), y = ix2 r j := ⟨y 0, y 1, eq_ix2 y⟩
  have hr : t.val * 1280 + r.val < 102400 := by have := r.isLt; omega
  show k1_pay1 (F := Ideal) (iblk1 V c 0 t) (iblk1 V c 1 t) (iblk1 V c 2 t) (iblk1 V c 3 t) (iblk1 V c 4 t) (ix2 r j)
      = Cert.Sage.layer 102400 (V c (Pipeline.arrRef spec1 0)) (V c (Pipeline.arrRef spec1 1))
          (V c (Pipeline.arrRef spec1 2)) (V c (Pipeline.arrRef spec1 3))
          (fun j => V c (Pipeline.arrRef spec1 4) (ix2 0 (j 0))) (((cfg1.win 5).blk t).view.emb (ix2 r j))
  rw [out_row t r j hr]
  exact block_layer (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) r ⟨t.val * 1280 + r.val, hr⟩ j
    (fun k => feat0_row V c t r k hr) (fun k => feat1_row V c t r k hr)
    (weight0_whole V c t) (weight1_whole V c t) (bias_whole V c t)

/-- An index of the output array is in point t's block iff each coordinate is in the block's range on its axis. -/
theorem mem_blk (t : Fin cfg1.N) (i : S102400x128.Idx) :
    i ∈ ((cfg1.win 5).blk t).view.set
      ↔ ∀ a : Fin 2, win1_5.index t a * S1280x128.size a ≤ (i a).val
          ∧ (i a).val < win1_5.index t a * S1280x128.size a + S1280x128.size a := by
  show i ∈ ((View.whole main_v56).slice (win1_5.rect t)).set ↔ _
  rw [View.set_slice_whole, Rect.mem_set_unit]
  exact Iff.rfl

/-- THE BLOCKS TILE THE ARRAY: row r lies in the block of the point r / 1280. -/
theorem cover (i : S102400x128.Idx) :
    ∃ t : Fin cfg1.N, (cfg1.win 5).flush t = true ∧ i ∈ ((cfg1.win 5).blk t).view.set := by
  have hi0 : (i 0).val < 102400 := idx2_lt0 i
  have hi1 : (i 1).val < 128 := idx2_lt1 i
  obtain ⟨t, ht⟩ : ∃ t : Fin cfg1.N, t.val = (i 0).val / 1280 :=
    ⟨⟨(i 0).val / 1280, by show _ < grid1.N; rw [N_1]; omega⟩, rfl⟩
  obtain ⟨e0, e1, -⟩ := index_facts t
  refine ⟨t, flush1_5 t, ?_⟩
  rw [mem_blk]
  intro a
  match a with
  | ⟨0, _⟩ =>
    show win1_5.index t (0 : Fin 2) * 1280 ≤ (i 0).val ∧ (i 0).val < win1_5.index t (0 : Fin 2) * 1280 + 1280
    omega
  | ⟨1, _⟩ =>
    show win1_5.index t (1 : Fin 2) * 128 ≤ (i 1).val ∧ (i 1).val < win1_5.index t (1 : Fin 2) * 128 + 128
    omega

/-- THE OUTPUT ARRAY after all 80 points is one layer of the region's input arrays. -/
theorem final (c : Dev nD) :
    (dat1 (F := Ideal) V c).arrAt 5 cfg1.N
      = Cert.Sage.layer 102400 (V c (Pipeline.arrRef spec1 0)) (V c (Pipeline.arrRef spec1 1))
          (V c (Pipeline.arrRef spec1 2)) (V c (Pipeline.arrRef spec1 3))
          (fun j => V c (Pipeline.arrRef spec1 4) (ix2 0 (j 0))) :=
  (dat1 (F := Ideal) V c).arrAt_eq_of_cover 5 _ (fun t _ => flushed_eq V c t) cover

end Cert.KernelIdeal.Region1

end
-- ==== Proof.Region2.lean ====
/-
  Region 2: what the third pipelined call leaves in its output array.

  At grid point t the body reads rows 1280 · t … 1280 · t + 1279 of the node features and of the aggregated
  features, the three 128 × 128 matrices and the two bias rows whole, and writes rows 1280 · t … of the output:
  the linear head of the layer of its blocks. A row of the head of the layer reads the same row of the two feature
  arrays only, so the block a point writes back is that block of the head of the layer of the WHOLE arrays; the 80
  blocks tile the 102400 rows, so the array ends holding that closed form.
-/
import proofs.«420383_j87892210745356_4_alg».proof.Proof.Gen.KernelIdeal.Frame
import proofs.«420383_j87892210745356_4_alg».proof.Proof.Spec
import proofs.«420383_j87892210745356_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The head at explicit coordinates. -/
theorem head_ix2 {M N : Nat} (h : (⟨2, ![M, 128]⟩ : Shape).Idx → EReal) (w : (⟨2, ![128, N]⟩ : Shape).Idx → EReal)
    (b : (⟨1, ![N]⟩ : Shape).Idx → EReal) (r : Fin M) (j : Fin N) :
    Cert.Sage.head M N h w b (ix2 r j) = (∑ k : Fin 128, h (ix2 r k) * w (ix2 k j)) + b (ix1 j) := rfl

/-- A layer at explicit coordinates. -/
theorem layer_ix2 {M : Nat} (x a : (⟨2, ![M, 128]⟩ : Shape).Idx → EReal) (ws wn : (⟨2, ![128, 128]⟩ : Shape).Idx → EReal)
    (b : (⟨1, ![128]⟩ : Shape).Idx → EReal) (r : Fin M) (j : Fin 128) :
    Cert.Sage.layer M x a ws wn b (ix2 r j)
      = max ((∑ k : Fin 128, x (ix2 r k) * ws (ix2 k j)) + (∑ k : Fin 128, a (ix2 r k) * wn (ix2 k j)) + b (ix1 j)) 0 := rfl

/-- The scalar zero of the body is the extended reals' zero. -/
theorem zero_f32 : (FloatOps.ofBits FTy.f32 0x00000000#32 : Ideal .f32) = (0 : EReal) := Ideal.ofBits_zero_f32

/-- The body's arithmetic at an entry (r, j) of its block: the head of the layer of the loaded blocks. -/
theorem pay_apply (x0 x1 : FVec Ideal S1280x128 .f32) (x2 x3 : FVec Ideal S128x128 .bf16) (x4 : FVec Ideal S1x128 .f32)
    (x5 : FVec Ideal S128x128 .bf16) (x6 : FVec Ideal S1x128 .f32) (r : Fin 1280) (j : Fin 128) :
    k2_pay1 (F := Ideal) x0 x1 x2 x3 x4 x5 x6 (ix2 r j)
      = Cert.Sage.head 1280 128 (Cert.Sage.layer 1280 x0 x1 x2 x3 (fun j => x4 (ix2 0 (j 0)))) x5
          (fun j => x6 (ix2 0 (j 0))) (ix2 r j) := by
  rw [head_ix2]
  unfold k2_pay1
  simp only [matmul, shapeCast_self]
  rw [show dot_S1280x128_S128x128_S1280x128_1_0_0_1_n_n = DotDims.plain 1280 128 128 from rfl]
  rw [addf_apply, broadcastTo_1b_ab_apply, Cert.Lib.PlainDot.matmul_plain_zero_ix2]
  congr 1
  refine Finset.sum_congr rfl fun k _ => ?_
  congr 1
  rw [layer_ix2, truncf_apply, maximumf_apply, addf_apply, addf_apply, broadcastTo_1b_ab_apply, broadcast_apply,
    Cert.Lib.PlainDot.matmul_plain_zero_ix2, Cert.Lib.PlainDot.matmul_plain_zero_ix2, zero_f32]
  rfl

theorem hz : (![0, 0] : Fin 2 → Nat) = fun _ => 0 := funext fun a => by fin_cases a <;> rfl

/-- The printed index maps, decided over the grid: the row windows sit at block (t, 0) at point t, the others at (0, 0). -/
theorem idx_facts : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The closed form: the head of the layer of the region's input arrays. -/
abbrev G (c : Dev nD) : (⟨2, ![102400, 128]⟩ : Shape).Idx → EReal :=
  Cert.Sage.head 102400 128
    (Cert.Sage.layer 102400 (V c (Pipeline.arrRef spec2 0)) (V c (Pipeline.arrRef spec2 1))
      (V c (Pipeline.arrRef spec2 2)) (V c (Pipeline.arrRef spec2 3))
      (fun j => V c (Pipeline.arrRef spec2 4) (ix2 0 (j 0))))
    (V c (Pipeline.arrRef spec2 5)) (fun j => V c (Pipeline.arrRef spec2 6) (ix2 0 (j 0)))

/-- Row r of the block of point t is row 1280 · t + r of the array. -/
def row (t : Fin cfg2.N) (r : Fin 1280) : Fin 102400 :=
  ⟨t.val * 1280 + r.val, by have := t.isLt; have hN : cfg2.N = 80 := N_2; have := r.isLt; omega⟩

/-- Where an entry of the output block of point t sits in the output array. -/
theorem emb7 (t : Fin cfg2.N) (r : Fin 1280) (cc : Fin 128) :
    ((cfg2.win 7).blk t).view.emb (ix2 r cc) = (ix2 (row t r) cc : (⟨2, ![102400, 128]⟩ : Shape).Idx) := by
  obtain ⟨e0, e1, -⟩ := idx_facts t
  funext a; apply Fin.ext
  match a with
  | ⟨0, _⟩ => show win2_7.index t (0 : Fin 2) * 1280 + 1 * r.val = t.val * 1280 + r.val; rw [e0]; omega
  | ⟨1, _⟩ => show win2_7.index t (1 : Fin 2) * 128 + 1 * cc.val = cc.val; rw [e1]; omega

/-- The block of the node features at point t is rows 1280 · t … of the array. -/
theorem blk0 (c : Dev nD) (t : Fin cfg2.N) (r : Fin 1280) (k : Fin 128) :
    iblk2 V c 0 t (ix2 r k) = V c (Pipeline.arrRef spec2 0) (ix2 (row t r) k) := by
  obtain ⟨-, -, e0, e1, -⟩ := idx_facts t
  show V c (Pipeline.arrRef spec2 0) (((cfg2.win 0).blk t).view.emb (ix2 r k)) = _
  congr 1
  funext a; apply Fin.ext
  match a with
  | ⟨0, _⟩ => show win2_0.index t (0 : Fin 2) * 1280 + 1 * r.val = t.val * 1280 + r.val; rw [e0]; omega
  | ⟨1, _⟩ => show win2_0.index t (1 : Fin 2) * 128 + 1 * k.val = k.val; rw [e1]; omega

/-- The block of the aggregated features at point t is rows 1280 · t … of the array. -/
theorem blk1 (c : Dev nD) (t : Fin cfg2.N) (r : Fin 1280) (k : Fin 128) :
    iblk2 V c 1 t (ix2 r k) = V c (Pipeline.arrRef spec2 1) (ix2 (row t r) k) := by
  obtain ⟨-, -, -, -, e0, e1, -⟩ := idx_facts t
  show V c (Pipeline.arrRef spec2 1) (((cfg2.win 1).blk t).view.emb (ix2 r k)) = _
  congr 1
  funext a; apply Fin.ext
  match a with
  | ⟨0, _⟩ => show win2_1.index t (0 : Fin 2) * 1280 + 1 * r.val = t.val * 1280 + r.val; rw [e0]; omega
  | ⟨1, _⟩ => show win2_1.index t (1 : Fin 2) * 128 + 1 * k.val = k.val; rw [e1]; omega

/-- The window of the first weight matrix is the whole matrix at every point. -/
theorem whole2 (c : Dev nD) (t : Fin cfg2.N) :
    (iblk2 V c 2 t : (⟨2, ![128, 128]⟩ : Shape).Idx → EReal) = V c (Pipeline.arrRef spec2 2) := by
  obtain ⟨-, -, -, -, -, -, e0, e1, -⟩ := idx_facts t
  funext y
  obtain ⟨a, b, rfl⟩ : ∃ (a : Fin 128) (b : Fin 128), y = ix2 a b := ⟨y 0, y 1, eq_ix2 y⟩
  show V c (Pipeline.arrRef spec2 2) (((cfg2.win 2).blk t).view.emb (ix2 a b)) = V c (Pipeline.arrRef spec2 2) (ix2 a b)
  congr 1
  funext d; apply Fin.ext
  match d with
  | ⟨0, _⟩ => show win2_2.index t (0 : Fin 2) * 128 + 1 * a.val = a.val; rw [e0]; omega
  | ⟨1, _⟩ => show win2_2.index t (1 : Fin 2) * 128 + 1 * b.val = b.val; rw [e1]; omega

/-- The window of the second weight matrix is the whole matrix at every point. -/
theorem whole3 (c : Dev nD) (t : Fin cfg2.N) :
    (iblk2 V c 3 t : (⟨2, ![128, 128]⟩ : Shape).Idx → EReal) = V c (Pipeline.arrRef spec2 3) := by
  obtain ⟨-, -, -, -, -, -, -, -, e0, e1, -⟩ := idx_facts t
  funext y
  obtain ⟨a, b, rfl⟩ : ∃ (a : Fin 128) (b : Fin 128), y = ix2 a b := ⟨y 0, y 1, eq_ix2 y⟩
  show V c (Pipeline.arrRef spec2 3) (((cfg2.win 3).blk t).view.emb (ix2 a b)) = V c (Pipeline.arrRef spec2 3) (ix2 a b)
  congr 1
  funext d; apply Fin.ext
  match d with
  | ⟨0, _⟩ => show win2_3.index t (0 : Fin 2) * 128 + 1 * a.val = a.val; rw [e0]; omega
  | ⟨1, _⟩ => show win2_3.index t (1 : Fin 2) * 128 + 1 * b.val = b.val; rw [e1]; omega

/-- The window of the layer's bias row is the whole row at every point. -/
theorem whole4 (c : Dev nD) (t : Fin cfg2.N) :
    (iblk2 V c 4 t : (⟨2, ![1, 128]⟩ : Shape).Idx → EReal) = V c (Pipeline.arrRef spec2 4) := by
  obtain ⟨-, -, -, -, -, -, -, -, -, -, e0, e1, -⟩ := idx_facts t
  funext y
  obtain ⟨a, b, rfl⟩ : ∃ (a : Fin 1) (b : Fin 128), y = ix2 a b := ⟨y 0, y 1, eq_ix2 y⟩
  show V c (Pipeline.arrRef spec2 4) (((cfg2.win 4).blk t).view.emb (ix2 a b)) = V c (Pipeline.arrRef spec2 4) (ix2 a b)
  congr 1
  funext d; apply Fin.ext
  match d with
  | ⟨0, _⟩ => show win2_4.index t (0 : Fin 2) * 1 + 1 * a.val = a.val; rw [e0]; omega
  | ⟨1, _⟩ => show win2_4.index t (1 : Fin 2) * 128 + 1 * b.val = b.val; rw [e1]; omega

/-- The window of the head matrix is the whole matrix at every point. -/
theorem whole5 (c : Dev nD) (t : Fin cfg2.N) :
    (iblk2 V c 5 t : (⟨2, ![128, 128]⟩ : Shape).Idx → EReal) = V c (Pipeline.arrRef spec2 5) := by
  obtain ⟨-, -, -, -, -, -, -, -, -, -, -, -, e0, e1, -⟩ := idx_facts t
  funext y
  obtain ⟨a, b, rfl⟩ : ∃ (a : Fin 128) (b : Fin 128), y = ix2 a b := ⟨y 0, y 1, eq_ix2 y⟩
  show V c (Pipeline.arrRef spec2 5) (((cfg2.win 5).blk t).view.emb (ix2 a b)) = V c (Pipeline.arrRef spec2 5) (ix2 a b)
  congr 1
  funext d; apply Fin.ext
  match d with
  | ⟨0, _⟩ => show win2_5.index t (0 : Fin 2) * 128 + 1 * a.val = a.val; rw [e0]; omega
  | ⟨1, _⟩ => show win2_5.index t (1 : Fin 2) * 128 + 1 * b.val = b.val; rw [e1]; omega

/-- The window of the head's bias row is the whole row at every point. -/
theorem whole6 (c : Dev nD) (t : Fin cfg2.N) :
    (iblk2 V c 6 t : (⟨2, ![1, 128]⟩ : Shape).Idx → EReal) = V c (Pipeline.arrRef spec2 6) := by
  obtain ⟨-, -, -, -, -, -, -, -, -, -, -, -, -, -, e0, e1⟩ := idx_facts t
  funext y
  obtain ⟨a, b, rfl⟩ : ∃ (a : Fin 1) (b : Fin 128), y = ix2 a b := ⟨y 0, y 1, eq_ix2 y⟩
  show V c (Pipeline.arrRef spec2 6) (((cfg2.win 6).blk t).view.emb (ix2 a b)) = V c (Pipeline.arrRef spec2 6) (ix2 a b)
  congr 1
  funext d; apply Fin.ext
  match d with
  | ⟨0, _⟩ => show win2_6.index t (0 : Fin 2) * 1 + 1 * a.val = a.val; rw [e0]; omega
  | ⟨1, _⟩ => show win2_6.index t (1 : Fin 2) * 128 + 1 * b.val = b.val; rw [e1]; omega

/-- WHAT POINT t WRITES BACK is block t of the closed form: a row of the head of the layer reads the same row of the
    two feature arrays only, and the block's rows are rows 1280 · t … of the arrays. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S1280x128) hz, View.ld_unit_zero (S := S128x128) hz, View.ld_unit_zero (S := S1x128) hz]
  funext j
  obtain ⟨r, cc, rfl⟩ : ∃ (r : Fin 1280) (cc : Fin 128), j = ix2 r cc := ⟨j 0, j 1, eq_ix2 j⟩
  show k2_pay1 (F := Ideal) (iblk2 V c 0 t) (iblk2 V c 1 t) (iblk2 V c 2 t) (iblk2 V c 3 t) (iblk2 V c 4 t)
      (iblk2 V c 5 t) (iblk2 V c 6 t) (ix2 r cc) = G V c (((cfg2.win 7).blk t).view.emb (ix2 r cc))
  rw [pay_apply, emb7, whole2, whole3, whole4, whole5, whole6]
  exact (Cert.Sage.head_rows _ _ _ _ (row t r) r cc fun k =>
    Cert.Sage.layer_rows _ _ _ _ _ _ _ (row t r) r k (fun k' => (blk0 V c t r k').symm) (fun k' => (blk1 V c t r k').symm)).symm

/-- An index of the output array is in point t's block iff each coordinate is in the block's range on its axis. -/
theorem mem_blk (t : Fin cfg2.N) (i : S102400x128.Idx) :
    i ∈ ((cfg2.win 7).blk t).view.set ↔ ∀ a : Fin 2, win2_7.index t a * S1280x128.size a ≤ (i a).val
      ∧ (i a).val < win2_7.index t a * S1280x128.size a + S1280x128.size a := by
  show i ∈ ((View.whole main_v77).slice (win2_7.rect t)).set ↔ _
  rw [View.set_slice_whole, Rect.mem_set_unit]
  exact Iff.rfl

/-- THE COVER: row r of the array lies in the block of point r / 1280, and every point writes its block back. -/
theorem cover (i : S102400x128.Idx) :
    ∃ t : Fin cfg2.N, (cfg2.win 7).flush t = true ∧ i ∈ ((cfg2.win 7).blk t).view.set := by
  have hi0 : (i 0).val < 102400 := (i 0).isLt
  have hi1 : (i 1).val < 128 := (i 1).isLt
  have hN : cfg2.N = 80 := N_2
  have ht : (i 0).val / 1280 < cfg2.N := by omega
  obtain ⟨e0, e1, -⟩ := idx_facts ⟨(i 0).val / 1280, ht⟩
  refine ⟨⟨(i 0).val / 1280, ht⟩, flush2_7 _, ?_⟩
  rw [mem_blk]
  intro a
  match a with
  | ⟨0, _⟩ =>
    show win2_7.index ⟨(i 0).val / 1280, ht⟩ (0 : Fin 2) * 1280 ≤ (i 0).val
      ∧ (i 0).val < win2_7.index ⟨(i 0).val / 1280, ht⟩ (0 : Fin 2) * 1280 + 1280
    rw [e0]
    show (i 0).val / 1280 * 1280 ≤ (i 0).val ∧ (i 0).val < (i 0).val / 1280 * 1280 + 1280
    omega
  | ⟨1, _⟩ =>
    show win2_7.index ⟨(i 0).val / 1280, ht⟩ (1 : Fin 2) * 128 ≤ (i 1).val
      ∧ (i 1).val < win2_7.index ⟨(i 0).val / 1280, ht⟩ (1 : Fin 2) * 128 + 128
    rw [e1]
    omega

/-- THE ARRAY after the run: the head of the layer of the region's input arrays, every row. -/
theorem final (c : Dev nD) :
    (dat2 (F := Ideal) V c).arrAt 7 cfg2.N
      = Cert.Sage.head 102400 128
          (Cert.Sage.layer 102400 (V c (Pipeline.arrRef spec2 0)) (V c (Pipeline.arrRef spec2 1))
            (V c (Pipeline.arrRef spec2 2)) (V c (Pipeline.arrRef spec2 3))
            (fun j => V c (Pipeline.arrRef spec2 4) (ix2 0 (j 0))))
          (V c (Pipeline.arrRef spec2 5)) (fun j => V c (Pipeline.arrRef spec2 6) (ix2 0 (j 0))) := by
  exact (dat2 V c).arrAt_eq_of_cover 7 (G V c) (fun t _ => flushed_eq V c t) cover

end Cert.KernelIdeal.Region2

end
-- ==== Proof.Net.lean ====
/-
  The whole network over the extended reals: three mean-aggregating layers and the linear head, the aggregation an
  arbitrary function `A` of a layer's input (both programs compute it by the same gather, scatter-add and degree scaling, so
  nothing about it is needed to compare them).
-/
import proofs.«420383_j87892210745356_4_alg».proof.Proof.Spec

noncomputable section

namespace Cert.Sage

open Idealize.ShloMosaic Idealize.ShloMosaic.ValueIdx

/-- h₁ = layer (x, A x), h₂ = layer (h₁, A h₁), h₃ = layer (h₂, A h₂), result = head h₃. -/
def net (A : ((⟨2, ![100000, 128]⟩ : Shape).Idx → EReal) → (⟨2, ![100000, 128]⟩ : Shape).Idx → EReal)
    (x : (⟨2, ![100000, 128]⟩ : Shape).Idx → EReal)
    (ws0 wn0 : (⟨2, ![128, 128]⟩ : Shape).Idx → EReal) (b0 : (⟨1, ![128]⟩ : Shape).Idx → EReal)
    (ws1 wn1 : (⟨2, ![128, 128]⟩ : Shape).Idx → EReal) (b1 : (⟨1, ![128]⟩ : Shape).Idx → EReal)
    (ws2 wn2 : (⟨2, ![128, 128]⟩ : Shape).Idx → EReal) (b2 : (⟨1, ![128]⟩ : Shape).Idx → EReal)
    (wfc : (⟨2, ![128, 64]⟩ : Shape).Idx → EReal) (bfc : (⟨1, ![64]⟩ : Shape).Idx → EReal) :
    (⟨2, ![100000, 64]⟩ : Shape).Idx → EReal :=
  head 100000 64
    (layer 100000 (layer 100000 (layer 100000 x (A x) ws0 wn0 b0) (A (layer 100000 x (A x) ws0 wn0 b0)) ws1 wn1 b1)
      (A (layer 100000 (layer 100000 x (A x) ws0 wn0 b0) (A (layer 100000 x (A x) ws0 wn0 b0)) ws1 wn1 b1)) ws2 wn2 b2)
    wfc bfc

end Cert.Sage

end
-- ==== Proof.PadSlice.lean ====
/-
  Padding and cutting, read at an index. Appending zero rows below an array (or zero columns to its right, or zeros after a
  vector) leaves the original entries where they were; a row of a layer or of the head reads the same row of its operands, and
  column j of the head reads column j of the matrix and entry j of the bias. So the first 100000 rows (and first 64 columns)
  of the computation over padded operands are the computation over the operands themselves.
-/
import proofs.«420383_j87892210745356_4_alg».proof.KernelIdeal
import proofs.«420383_j87892210745356_4_alg».proof.Proof.Gen.KernelIdeal
import proofs.«420383_j87892210745356_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PadSlice

open Cert.KernelIdeal Cert.KernelIdeal.Gen
open Idealize.ShloMosaic Idealize.ShloMosaic.ValueIdx

/-- 2400 zero rows appended below the 100000 rows of `x`. -/
def padRows (x : FVec Ideal S100000x128 .f32) : FVec Ideal S102400x128 .f32 :=
  concatenate S102400x128 0 [⟨S100000x128, x⟩, ⟨S2400x128, broadcastInDim S2400x128 ![] bcast_S_S2400x128 (constant S_ .f32 0x00000000#32)⟩]
    concatenates_S100000x128_S2400x128_S102400x128_d0

/-- 64 zero columns appended to the right of the 64 columns of `w`. -/
def padCols (w : FVec Ideal S128x64 .f32) : FVec Ideal S128x128 .f32 :=
  concatenate S128x128 1 [⟨S128x64, w⟩, ⟨S128x64, broadcastInDim S128x64 ![] bcast_S_S128x64 (constant S_ .f32 0x00000000#32)⟩]
    concatenates_S128x64_S128x64_S128x128_d1

/-- 64 zeros appended after the 64 entries of `b`. -/
def padBias (b : FVec Ideal S64 .f32) : FVec Ideal S128 .f32 :=
  concatenate S128 0 [⟨S64, b⟩, ⟨S64, broadcastInDim S64 ![] bcast_S_S64 (constant S_ .f32 0x00000000#32)⟩] concatenates_S64_S64_S128_d0

/-- A row below 100000 of the row-padded array is that row of the array. -/
theorem padRows_apply (x : FVec Ideal S100000x128 .f32) (r : Fin 100000) (k : Fin 128) (hr : r.val < 102400) :
    padRows x (ix2 (⟨r.val, hr⟩ : Fin 102400) k) = x (ix2 r k) := by
  unfold padRows
  refine concatenate_pair_apply_left (0 : Fin S102400x128.rank) x _ _ (ix2 (⟨r.val, hr⟩ : Fin 102400) k) rfl (ix2 r k) ?_
  intro b
  match b with
  | ⟨0, _⟩ => rfl
  | ⟨1, _⟩ => rfl

/-- A column below 64 of the column-padded matrix is that column of the matrix. -/
theorem padCols_apply (w : FVec Ideal S128x64 .f32) (k : Fin 128) (j : Fin 64) (hj : j.val < 128) :
    padCols w (ix2 k (⟨j.val, hj⟩ : Fin 128)) = w (ix2 k j) := by
  unfold padCols
  refine concatenate_pair_apply_left (1 : Fin S128x128.rank) w _ _ (ix2 k (⟨j.val, hj⟩ : Fin 128)) rfl (ix2 k j) ?_
  intro b
  match b with
  | ⟨0, _⟩ => rfl
  | ⟨1, _⟩ => rfl

/-- An entry below 64 of the padded bias is that entry of the bias. -/
theorem padBias_apply (b : FVec Ideal S64 .f32) (j : Fin 64) (hj : j.val < 128) :
    padBias b (ix1 (⟨j.val, hj⟩ : Fin 128)) = b (ix1 j) := by
  unfold padBias
  refine concatenate_pair_apply_left (0 : Fin S128.rank) b _ _ (ix1 (⟨j.val, hj⟩ : Fin 128)) rfl (ix1 j) ?_
  intro a
  match a with
  | ⟨0, _⟩ => rfl
/-- The head over the column-padded matrix and padded bias, read at a column below 64, is the head over the matrix and
    bias themselves: the sum over the 128 contracted entries has the same terms, and the bias entry is the same. -/
theorem head_cols {M : Nat} (x : (⟨2, ![M, 128]⟩ : Shape).Idx → EReal) (w : FVec Ideal S128x64 .f32) (b : FVec Ideal S64 .f32)
    (r : Fin M) (j : Fin 64) (hj : j.val < 128) :
    Cert.Sage.head M 128 x (padCols w) (padBias b) (ix2 r (⟨j.val, hj⟩ : Fin 128)) = Cert.Sage.head M 64 x w b (ix2 r j) := by
  unfold Cert.Sage.head
  show (∑ k : Fin 128, x (ix2 r k) * padCols w (ix2 k (⟨j.val, hj⟩ : Fin 128))) + padBias b (ix1 (⟨j.val, hj⟩ : Fin 128))
      = (∑ k : Fin 128, x (ix2 r k) * w (ix2 k j)) + b (ix1 j)
  rw [padBias_apply b j hj]
  congr 1
  exact Finset.sum_congr rfl fun k _ => by rw [padCols_apply w k j hj]

/-- The first 100000 rows of a layer over padded operands are the layer over the operands. -/
theorem slice_layer_pad (h a : FVec Ideal S100000x128 .f32) (ws wn : S128x128.Idx → EReal) (b : S128.Idx → EReal) :
    extractStridedSlice S100000x128 ![0, 0] (Cert.Sage.layer 102400 (padRows h) (padRows a) ws wn b) slices_S102400x128_S100000x128_0_0
      = Cert.Sage.layer 100000 h a ws wn b := by
  funext i
  obtain ⟨r, j, rfl⟩ : ∃ (r : Fin 100000) (j : Fin 128), i = ix2 r j := ⟨i 0, i 1, eq_ix2 i⟩
  have hr : r.val < 102400 := by have := r.isLt; omega
  -- the slice starts at row 0 and column 0: entry (r, j) of it is entry (r, j) of the padded layer
  refine (extractStridedSlice_apply ![0, 0] _ slices_S102400x128_S100000x128_0_0 (ix2 r j)
    (ix2 (⟨r.val, hr⟩ : Fin 102400) j) ?_).trans ?_
  · intro c
    match c with
    | ⟨0, _⟩ => show r.val = 0 + r.val; omega
    | ⟨1, _⟩ => show j.val = 0 + j.val; omega
  -- row r of the layer reads row r of the operands, where padding changes nothing
  · exact Cert.Sage.layer_rows (padRows h) (padRows a) h a ws wn b ⟨r.val, hr⟩ r j
      (fun k => padRows_apply h r k hr) (fun k => padRows_apply a r k hr)

/-- The first 100000 rows and 64 columns of the head with padded matrix and bias, over a layer of padded operands, are the
    head over the layer of the operands. -/
theorem slice_head_pad (h a : FVec Ideal S100000x128 .f32) (ws wn : S128x128.Idx → EReal) (b : S128.Idx → EReal)
    (wfc : FVec Ideal S128x64 .f32) (bfc : FVec Ideal S64 .f32) :
    extractStridedSlice S100000x64 ![0, 0]
        (Cert.Sage.head 102400 128 (Cert.Sage.layer 102400 (padRows h) (padRows a) ws wn b) (padCols wfc) (padBias bfc))
        slices_S102400x128_S100000x64_0_0
      = Cert.Sage.head 100000 64 (Cert.Sage.layer 100000 h a ws wn b) wfc bfc := by
  funext i
  obtain ⟨r, j, rfl⟩ : ∃ (r : Fin 100000) (j : Fin 64), i = ix2 r j := ⟨i 0, i 1, eq_ix2 i⟩
  have hr : r.val < 102400 := by have := r.isLt; omega
  have hj : j.val < 128 := by have := j.isLt; omega
  refine (extractStridedSlice_apply ![0, 0] _ slices_S102400x128_S100000x64_0_0 (ix2 r j)
    (ix2 (⟨r.val, hr⟩ : Fin 102400) (⟨j.val, hj⟩ : Fin 128)) ?_).trans ?_
  · intro c
    match c with
    | ⟨0, _⟩ => show r.val = 0 + r.val; omega
    | ⟨1, _⟩ => show j.val = 0 + j.val; omega
  -- first the rows: row r of the head reads row r of the layer, which reads row r of the operands
  refine (Cert.Sage.head_rows (Cert.Sage.layer 102400 (padRows h) (padRows a) ws wn b) (Cert.Sage.layer 100000 h a ws wn b)
    (padCols wfc) (padBias bfc) ⟨r.val, hr⟩ r (⟨j.val, hj⟩ : Fin 128) fun k => ?_).trans ?_
  · exact Cert.Sage.layer_rows (padRows h) (padRows a) h a ws wn b ⟨r.val, hr⟩ r k
      (fun k' => padRows_apply h r k' hr) (fun k' => padRows_apply a r k' hr)
  -- then the columns
  · exact head_cols (Cert.Sage.layer 100000 h a ws wn b) wfc bfc r j hj

/-- A bias of 128 entries recast as one row of 128 and read along that row is the bias. -/
theorem row_of_reshape (b : FVec Ideal S128 .f32) :
    (fun j : S128.Idx => shapeCast S1x128 b shapeCasts_S128_S1x128 (ix2 0 (j 0))) = b := by
  funext j
  obtain ⟨c, rfl⟩ : ∃ c : Fin 128, j = ix1 c := ⟨j 0, eq_ix1 j⟩
  show shapeCast S1x128 b shapeCasts_S128_S1x128 (ix2 (0 : Fin 1) c) = b (ix1 c)
  -- entry (0, c) of the row and entry c of the bias sit at the same row-major position, c
  refine shapeCast_apply b shapeCasts_S128_S1x128 (ix2 (0 : Fin 1) c) (ix1 c) ?_
  rw [Shape.rowMajor_val_one, Shape.rowMajor_val_two]
  show c.val = (0 : Fin 1).val * 128 + c.val
  simp

end Cert.KernelIdeal.PadSlice

end
-- ==== Proof.KernelValue.lean ====
/-
  The kernel program's result buffer as mathematics. Between its three calls the program runs stretches of host operations:
  before each call it gathers the current features along the edges, adds them into their destinations, scales by the inverse
  degree, pads both operands with zero rows and recasts the bias as a row; after each call it cuts the first 100000 rows back
  out (after the last, also the first 64 columns). Each stretch is read as a function of the buffers it finds, each call's output
  array is the layer (or head of the layer) of its input arrays, and a buffer nobody writes keeps its contents; chained from
  the launch memory, the result is the network of Net.lean with the aggregation carried as one function.
-/
import proofs.«420383_j87892210745356_4_alg».proof.Proof.Gen.KernelIdeal.Frame
import proofs.«420383_j87892210745356_4_alg».proof.Proof.Region0
import proofs.«420383_j87892210745356_4_alg».proof.Proof.Region1
import proofs.«420383_j87892210745356_4_alg».proof.Proof.Region2
import proofs.«420383_j87892210745356_4_alg».proof.Proof.Net
import proofs.«420383_j87892210745356_4_alg».proof.Proof.PadSlice
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- The mean over incoming edges, as the program computes it: gather the rows of `h` at the edges' sources (a negative
    index counted from the end), add each gathered row into its destination's row, and scale row v by one over
    max (1, number of edges into v). -/
def agg (src dst : IVec S1600000 32) (h : FVec Ideal S100000x128 .f32) : FVec Ideal S100000x128 .f32 :=
  mulf (F := Ideal) (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (Host.divf (broadcastInDim S100000 ![] bcast_S_S100000 (constant S_ .f32 0x3F800000#32))
          (maximumf (broadcastInDim S100000 ![] bcast_S_S100000 (id (constant S_ .f32 0x3F800000#32)))
            (Host.scatterAdd scatter_S100000_S1600000x1_S1600000_n_0_0_1
              (broadcastInDim S100000 ![] bcast_S_S100000 (constant S_ .f32 0x00000000#32))
              (broadcastInDim S1600000x1 ![0] bcast_S1600000_S1600000x1_0 dst)
              (broadcastInDim S1600000 ![] bcast_S_S1600000 (constant S_ .f32 0x3F800000#32)))))))

/-! ## The pieces of the aggregation, and of the padding around a call

The program recomputes the mean over incoming edges before each of its three calls, from the same edge lists; the scaling
vector, one over max (1, in-degree), it computes once. Naming the pieces lets every stretch of host operations be read as
one short term. -/

/-- The in-degree of every node, as a float: a one added at every edge's destination. -/
def degSum (dst : IVec S1600000 32) : FVec Ideal S100000 .f32 :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- max (one, d), entry by entry. -/
def clipOf (one : FVec Ideal S_ .f32) (d : FVec Ideal S100000 .f32) : FVec Ideal S100000 .f32 :=
  maximumf (F := Ideal) (φ := .f32) (broadcastInDim S100000 ![] bcast_S_S100000 (id one)) d

/-- 1 / d, entry by entry. -/
def invOf (d : FVec Ideal S100000 .f32) : FVec Ideal S100000 .f32 :=
  Host.divf (F := Ideal) (φ := .f32) (broadcastInDim S100000 ![] bcast_S_S100000 (constant (F := Ideal) S_ .f32 0x3F800000#32)) d

/-- One over max (1, in-degree). -/
def invDeg (dst : IVec S1600000 32) : FVec Ideal S100000 .f32 :=
  invOf (clipOf (constant (F := Ideal) S_ .f32 0x3F800000#32) (degSum dst))

/-- Gather the rows of `h` at the edges' sources, add each into its destination's row, scale row v by `w v`. -/
def aggBy (w : FVec Ideal S100000 .f32) (src dst : IVec S1600000 32) (h : FVec Ideal S100000x128 .f32) :
    FVec Ideal S100000x128 .f32 :=
  mulf (F := Ideal) (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 w))

/-- The mean is the scaled sum with the scaling vector one over max (1, in-degree). -/
theorem agg_eq (src dst : IVec S1600000 32) (h : FVec Ideal S100000x128 .f32) :
    agg src dst h = aggBy (invDeg dst) src dst h := rfl

/-- The first 100000 of 102400 rows. -/
def top (y : FVec Ideal S102400x128 .f32) : FVec Ideal S100000x128 .f32 :=
  extractStridedSlice S100000x128 ![0, 0] y slices_S102400x128_S100000x128_0_0

/-- A weight matrix rounded to the narrower float format: at the extended reals, the matrix itself. -/
def narrow (w : FVec Ideal S128x128 .f32) : FVec Ideal S128x128 .bf16 :=
  truncf (F := Ideal) (φ := .f32) .bf16 w bitsLt_bf16_f32

theorem narrow_eq (w : FVec Ideal S128x128 .f32) : (narrow w : S128x128.Idx → EReal) = w :=
  funext fun _ => rfl

/-- A bias of 128 entries as one row. -/
def asRow (b : FVec Ideal S128 .f32) : FVec Ideal S1x128 .f32 :=
  shapeCast S1x128 b shapeCasts_S128_S1x128

theorem row_asRow (b : FVec Ideal S128 .f32) : (fun j : S128.Idx => asRow b (ix2 0 (j 0))) = b :=
  PadSlice.row_of_reshape b

/-- A layer whose operands are rewritten one by one, its bias given as a row. -/
theorem layer_of {x x' a a' : FVec Ideal S102400x128 .f32} {ws ws' wn wn' : S128x128.Idx → EReal} {r : FVec Ideal S1x128 .f32}
    {b : FVec Ideal S128 .f32} (hx : x = x') (ha : a = a') (hws : ws = ws') (hwn : wn = wn') (hb : r = asRow b) :
    Cert.Sage.layer 102400 x a ws wn (fun j => r (ix2 0 (j 0))) = Cert.Sage.layer 102400 x' a' ws' wn' b := by
  subst hx ha hws hwn hb
  rw [row_asRow]

/-- The same for the head. -/
theorem head_of {h h' : FVec Ideal S102400x128 .f32} {w w' : S128x128.Idx → EReal} {r : FVec Ideal S1x128 .f32}
    {b : FVec Ideal S128 .f32} (hh : h = h') (hw : w = w') (hb : r = asRow b) :
    Cert.Sage.head 102400 128 h w (fun j => r (ix2 0 (j 0))) = Cert.Sage.head 102400 128 h' w' b := by
  subst hh hw hb
  rw [row_asRow]

/-- Two blocks stacked, the lower one zero, are the upper one with zero rows below. -/
theorem padRows_of {a a' : FVec Ideal S100000x128 .f32} {z : FVec Ideal S2400x128 .f32} (ha : a = a')
    (hz : z = broadcastInDim S2400x128 ![] bcast_S_S2400x128 (constant (F := Ideal) S_ .f32 0x00000000#32)) :
    concatenate S102400x128 0 [⟨S100000x128, a⟩, ⟨S2400x128, z⟩] concatenates_S100000x128_S2400x128_S102400x128_d0
      = PadSlice.padRows a' := by
  subst ha hz; rfl

/-! ## What each stretch of host operations leaves, over any contents `V` it starts from -/

section Stretches

variable (V : Valuation τ sig (Elt Ideal))

/-- Before the first call, first stretch: the in-degrees. -/
theorem pre0_v3 : StableHlo.after hostOps0 V (Proc.devRef .tc main_v3) = degSum (V (Proc.devRef .tc main_arg2)) := by
  after_results <;> rfl

theorem pre0_cst1 : StableHlo.after hostOps0 V (Proc.devRef .tc main_cst_1) = constant (F := Ideal) S_ .f32 0x3F800000#32 := by
  after_results <;> rfl

/-- Second stretch: the in-degrees clipped below at one. -/
theorem pre1_v4 : StableHlo.after hostOps0_1 V (Proc.devRef .tc main_v4)
    = clipOf (V (Proc.devRef .tc main_cst_1)) (V (Proc.devRef .tc main_v3)) := by
  after_results <;> rfl

/-- Third stretch: the scaling vector, … -/
theorem pre2_v6 : StableHlo.after hostOps0_2 V (Proc.devRef .tc main_v6) = invOf (V (Proc.devRef .tc main_v4)) := by
  after_results_simp <;> rfl

/-- … the features with zero rows below, … -/
theorem pre2_v32 : StableHlo.after hostOps0_2 V (Proc.devRef .tc main_v32) = PadSlice.padRows (V (Proc.devRef .tc main_arg0)) := by
  after_results_simp <;> rfl

/-- … their mean over incoming edges with zero rows below, … -/
theorem pre2_v34 : StableHlo.after hostOps0_2 V (Proc.devRef .tc main_v34)
    = PadSlice.padRows (aggBy (invOf (V (Proc.devRef .tc main_v4))) (V (Proc.devRef .tc main_arg1)) (V (Proc.devRef .tc main_arg2))
        (V (Proc.devRef .tc main_arg0))) := by
  after_results_simp
  refine padRows_of ?_ ?_ <;> (after_results_simp <;> rfl)

/-- … the six weight matrices of the layers in the narrower format, … -/
theorem pre2_v7 : StableHlo.after hostOps0_2 V (Proc.devRef .tc main_v7) = narrow (V (Proc.devRef .tc main_arg3)) := by
  after_results_simp <;> rfl
theorem pre2_v8 : StableHlo.after hostOps0_2 V (Proc.devRef .tc main_v8) = narrow (V (Proc.devRef .tc main_arg4)) := by
  after_results_simp <;> rfl
theorem pre2_v9 : StableHlo.after hostOps0_2 V (Proc.devRef .tc main_v9) = narrow (V (Proc.devRef .tc main_arg6)) := by
  after_results_simp <;> rfl
theorem pre2_v10 : StableHlo.after hostOps0_2 V (Proc.devRef .tc main_v10) = narrow (V (Proc.devRef .tc main_arg7)) := by
  after_results_simp <;> rfl
theorem pre2_v11 : StableHlo.after hostOps0_2 V (Proc.devRef .tc main_v11) = narrow (V (Proc.devRef .tc main_arg9)) := by
  after_results_simp <;> rfl
theorem pre2_v12 : StableHlo.after hostOps0_2 V (Proc.devRef .tc main_v12) = narrow (V (Proc.devRef .tc main_arg10)) := by
  after_results_simp <;> rfl

/-- … the head's matrix and bias widened by zeros from 64 to 128 columns, … -/
theorem pre2_v17 : StableHlo.after hostOps0_2 V (Proc.devRef .tc main_v17) = narrow (PadSlice.padCols (V (Proc.devRef .tc main_arg12))) := by
  after_results_simp <;> rfl
theorem pre2_v16 : StableHlo.after hostOps0_2 V (Proc.devRef .tc main_v16) = PadSlice.padBias (V (Proc.devRef .tc main_arg13)) := by
  after_results_simp <;> rfl

/-- … and the first layer's bias as a row. -/
theorem pre2_v35 : StableHlo.after hostOps0_2 V (Proc.devRef .tc main_v35) = asRow (V (Proc.devRef .tc main_arg5)) := by
  after_results_simp <;> rfl

/-- Between two calls: the first 100000 rows of the last call's result with zero rows below, … -/
theorem mid1_v52 : StableHlo.after hostOps1 V (Proc.devRef .tc main_v52) = PadSlice.padRows (top (V (Proc.devRef .tc main_v36))) := by
  after_results_simp
  refine padRows_of ?_ ?_ <;> (after_results_simp <;> rfl)
/-- … their mean over incoming edges likewise, and the next bias as a row. -/
theorem mid1_v54 : StableHlo.after hostOps1 V (Proc.devRef .tc main_v54)
    = PadSlice.padRows (aggBy (V (Proc.devRef .tc main_v6)) (V (Proc.devRef .tc main_arg1)) (V (Proc.devRef .tc main_arg2))
        (top (V (Proc.devRef .tc main_v36)))) := by
  after_results_simp
  refine padRows_of ?_ ?_ <;> (after_results_simp <;> rfl)
theorem mid1_v55 : StableHlo.after hostOps1 V (Proc.devRef .tc main_v55) = asRow (V (Proc.devRef .tc main_arg8)) := by
  after_results_simp <;> rfl

theorem mid2_v72 : StableHlo.after hostOps2 V (Proc.devRef .tc main_v72) = PadSlice.padRows (top (V (Proc.devRef .tc main_v56))) := by
  after_results_simp
  refine padRows_of ?_ ?_ <;> (after_results_simp <;> rfl)
theorem mid2_v74 : StableHlo.after hostOps2 V (Proc.devRef .tc main_v74)
    = PadSlice.padRows (aggBy (V (Proc.devRef .tc main_v6)) (V (Proc.devRef .tc main_arg1)) (V (Proc.devRef .tc main_arg2))
        (top (V (Proc.devRef .tc main_v56)))) := by
  after_results_simp
  refine padRows_of ?_ ?_ <;> (after_results_simp <;> rfl)
theorem mid2_v75 : StableHlo.after hostOps2 V (Proc.devRef .tc main_v75) = asRow (V (Proc.devRef .tc main_arg11)) := by
  after_results_simp <;> rfl
theorem mid2_v76 : StableHlo.after hostOps2 V (Proc.devRef .tc main_v76) = asRow (V (Proc.devRef .tc main_v16)) := by
  after_results_simp <;> rfl

/-- After the last call: the first 100000 rows and 64 columns of its result. -/
theorem post_v78 : StableHlo.after hostOps3 V (Proc.devRef .tc main_v78)
    = extractStridedSlice S100000x64 ![0, 0] (V (Proc.devRef .tc main_v77)) slices_S102400x128_S100000x64_0_0 := by
  after_results <;> rfl

end Stretches

/-! ## The buffers each stretch writes: every other buffer it leaves as it was -/

abbrev wr0 : List (Ref sig .tc) := [main_cst, main_v0, main_cst_0, main_v1, main_v2, main_v3, main_cst_1]
theorem wr0_sub : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev wr1 : List (Ref sig .tc) := [main_call0_v0, main_call0_v1, main_v4]
theorem wr1_sub : (hostOps0_1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev wr2 : List (Ref sig .tc) :=
  [main_cst_2, main_v5, main_v6, main_v7, main_v8, main_v9, main_v10, main_v11, main_v12, main_cst_3, main_v13, main_v14, main_cst_4,
   main_v15, main_v16, main_v17, main_c, main_v18, main_v19, main_c_5, main_v20, main_v21, main_v22, main_v23, main_v24, main_cst_6,
   main_v25, main_v26, main_v27, main_v28, main_v29, main_v30, main_cst_7, main_v31, main_v32, main_cst_8, main_v33, main_v34, main_v35]
theorem wr2_sub : (hostOps0_2 : List (HloOp τ sig (Elt Ideal))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev wr3 : List (Ref sig .tc) :=
  [main_v37, main_c_9, main_v38, main_v39, main_c_10, main_v40, main_v41, main_v42, main_v43, main_v44, main_cst_11, main_v45, main_v46,
   main_v47, main_v48, main_v49, main_v50, main_cst_12, main_v51, main_v52, main_cst_13, main_v53, main_v54, main_v55]
theorem wr3_sub : (hostOps1 : List (HloOp τ sig (Elt Ideal))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

abbrev wr4 : List (Ref sig .tc) :=
  [main_v57, main_c_14, main_v58, main_v59, main_c_15, main_v60, main_v61, main_v62, main_v63, main_v64, main_cst_16, main_v65, main_v66,
   main_v67, main_v68, main_v69, main_v70, main_cst_17, main_v71, main_v72, main_cst_18, main_v73, main_v74, main_v75, main_v76]
theorem wr4_sub : (hostOps2 : List (HloOp τ sig (Elt Ideal))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## The run, boundary by boundary -/

variable (m : (ℓ : Loc nD τ sig) → Buf (Elt Ideal) ℓ) (ρ : Dev nD → PrngReg) (c : Dev nD)

set_option quotPrecheck false in
/-- Core `c`'s launch contents of a buffer. -/
local notation "𝔞[" b "]" => m ((c.tc : Thread nD τ).loc b)

/-! ### Up to the first call -/

/-- A buffer the first two stretches do not write holds its launch contents after them. -/
theorem W2_keep (r : Ref sig .tc) (h0 : r ∉ wr0) (h1 : r ∉ wr1) :
    W2 (F := Ideal) m ρ c (Proc.devRef .tc r) = 𝔞[r] :=
  (StableHlo.after_of_writes_sub hostOps0_1 _ wr1_sub h1).trans ((StableHlo.after_of_writes_sub hostOps0 _ wr0_sub h0).trans rfl)

/-- … and one the third does not write either, at the first call's entry. -/
theorem W3_keep (r : Ref sig .tc) (h0 : r ∉ wr0) (h1 : r ∉ wr1) (h2 : r ∉ wr2) :
    W3 (F := Ideal) m ρ c (Proc.devRef .tc r) = 𝔞[r] :=
  (StableHlo.after_of_writes_sub hostOps0_2 _ wr2_sub h2).trans (W2_keep m ρ c r h0 h1)

theorem W2_v4 : W2 (F := Ideal) m ρ c (Proc.devRef .tc main_v4)
    = clipOf (constant (F := Ideal) S_ .f32 0x3F800000#32) (degSum 𝔞[main_arg2]) :=
  (pre1_v4 (W1 m ρ c)).trans (congrArg₂ clipOf (pre0_cst1 (W0 m ρ c)) (pre0_v3 (W0 m ρ c)))

theorem W3_v6 : W3 (F := Ideal) m ρ c (Proc.devRef .tc main_v6) = invDeg 𝔞[main_arg2] :=
  (pre2_v6 (W2 m ρ c)).trans (congrArg invOf (W2_v4 m ρ c))

theorem W3_v32 : W3 (F := Ideal) m ρ c (Proc.devRef .tc main_v32) = PadSlice.padRows 𝔞[main_arg0] :=
  (pre2_v32 (W2 m ρ c)).trans (congrArg PadSlice.padRows (W2_keep m ρ c main_arg0 (by decide) (by decide)))

theorem W3_v34 : W3 (F := Ideal) m ρ c (Proc.devRef .tc main_v34) = PadSlice.padRows (agg 𝔞[main_arg1] 𝔞[main_arg2] 𝔞[main_arg0]) := by
  refine (pre2_v34 (W2 m ρ c)).trans ?_
  rw [W2_v4 m ρ c, W2_keep m ρ c main_arg0 (by decide) (by decide), W2_keep m ρ c main_arg1 (by decide) (by decide),
    W2_keep m ρ c main_arg2 (by decide) (by decide)]
  rfl

theorem W3_v7 : W3 (F := Ideal) m ρ c (Proc.devRef .tc main_v7) = narrow 𝔞[main_arg3] :=
  (pre2_v7 (W2 m ρ c)).trans (congrArg narrow (W2_keep m ρ c main_arg3 (by decide) (by decide)))
theorem W3_v8 : W3 (F := Ideal) m ρ c (Proc.devRef .tc main_v8) = narrow 𝔞[main_arg4] :=
  (pre2_v8 (W2 m ρ c)).trans (congrArg narrow (W2_keep m ρ c main_arg4 (by decide) (by decide)))
theorem W3_v9 : W3 (F := Ideal) m ρ c (Proc.devRef .tc main_v9) = narrow 𝔞[main_arg6] :=
  (pre2_v9 (W2 m ρ c)).trans (congrArg narrow (W2_keep m ρ c main_arg6 (by decide) (by decide)))
theorem W3_v10 : W3 (F := Ideal) m ρ c (Proc.devRef .tc main_v10) = narrow 𝔞[main_arg7] :=
  (pre2_v10 (W2 m ρ c)).trans (congrArg narrow (W2_keep m ρ c main_arg7 (by decide) (by decide)))
theorem W3_v11 : W3 (F := Ideal) m ρ c (Proc.devRef .tc main_v11) = narrow 𝔞[main_arg9] :=
  (pre2_v11 (W2 m ρ c)).trans (congrArg narrow (W2_keep m ρ c main_arg9 (by decide) (by decide)))
theorem W3_v12 : W3 (F := Ideal) m ρ c (Proc.devRef .tc main_v12) = narrow 𝔞[main_arg10] :=
  (pre2_v12 (W2 m ρ c)).trans (congrArg narrow (W2_keep m ρ c main_arg10 (by decide) (by decide)))
theorem W3_v17 : W3 (F := Ideal) m ρ c (Proc.devRef .tc main_v17) = narrow (PadSlice.padCols 𝔞[main_arg12]) :=
  (pre2_v17 (W2 m ρ c)).trans (congrArg (fun w => narrow (PadSlice.padCols w)) (W2_keep m ρ c main_arg12 (by decide) (by decide)))
theorem W3_v16 : W3 (F := Ideal) m ρ c (Proc.devRef .tc main_v16) = PadSlice.padBias 𝔞[main_arg13] :=
  (pre2_v16 (W2 m ρ c)).trans (congrArg PadSlice.padBias (W2_keep m ρ c main_arg13 (by decide) (by decide)))
theorem W3_v35 : W3 (F := Ideal) m ρ c (Proc.devRef .tc main_v35) = asRow 𝔞[main_arg5] :=
  (pre2_v35 (W2 m ρ c)).trans (congrArg asRow (W2_keep m ρ c main_arg5 (by decide) (by decide)))

/-! ### The first call and what follows it -/

/-- The first hidden layer. -/
def hid1 : FVec Ideal S100000x128 .f32 :=
  Cert.Sage.layer 100000 𝔞[main_arg0] (agg 𝔞[main_arg1] 𝔞[main_arg2] 𝔞[main_arg0]) 𝔞[main_arg3] 𝔞[main_arg4] 𝔞[main_arg5]

/-- The first call's result array: the layer over the padded features and the padded mean. -/
theorem call0 : W4 (F := Ideal) m ρ c (Proc.devRef .tc main_v36)
    = Cert.Sage.layer 102400 (PadSlice.padRows 𝔞[main_arg0]) (PadSlice.padRows (agg 𝔞[main_arg1] 𝔞[main_arg2] 𝔞[main_arg0])) 𝔞[main_arg3] 𝔞[main_arg4] 𝔞[main_arg5] :=
  (W4_arr m ρ c 5).trans ((Region0.final (V3 m ρ) c).trans
    (layer_of (W3_v32 m ρ c) (W3_v34 m ρ c) ((W3_v7 m ρ c).trans (narrow_eq _)) ((W3_v8 m ρ c).trans (narrow_eq _)) (W3_v35 m ρ c)))

/-- Its first 100000 rows are the first hidden layer. -/
theorem top_call0 : top (W4 (F := Ideal) m ρ c (Proc.devRef .tc main_v36)) = hid1 m c :=
  (congrArg top (call0 m ρ c)).trans (PadSlice.slice_layer_pad _ _ _ _ _)

theorem W4_v6 : W4 (F := Ideal) m ρ c (Proc.devRef .tc main_v6) = invDeg 𝔞[main_arg2] :=
  (W4_of_ne m ρ c main_v6 (by decide)).trans (W3_v6 m ρ c)

/-- A buffer that no stretch before the first call writes and that is none of the call's arrays. -/
theorem W4_keep (r : Ref sig .tc) (h0 : r ∉ wr0) (h1 : r ∉ wr1) (h2 : r ∉ wr2) (hk : ∀ w, Pipeline.arrRef spec0 w ≠ r) :
    W4 (F := Ideal) m ρ c (Proc.devRef .tc r) = 𝔞[r] :=
  (W4_of_ne m ρ c r hk).trans (W3_keep m ρ c r h0 h1 h2)

/-- A buffer the stretch between the first two calls does not write. -/
theorem W5_keep (r : Ref sig .tc) (h : r ∉ wr3) :
    W5 (F := Ideal) m ρ c (Proc.devRef .tc r) = W4 m ρ c (Proc.devRef .tc r) :=
  StableHlo.after_of_writes_sub hostOps1 _ wr3_sub h

theorem W5_v52 : W5 (F := Ideal) m ρ c (Proc.devRef .tc main_v52) = PadSlice.padRows (hid1 m c) :=
  (mid1_v52 (W4 m ρ c)).trans (congrArg PadSlice.padRows (top_call0 m ρ c))

theorem W5_v54 : W5 (F := Ideal) m ρ c (Proc.devRef .tc main_v54) = PadSlice.padRows (agg 𝔞[main_arg1] 𝔞[main_arg2] (hid1 m c)) := by
  refine (mid1_v54 (W4 m ρ c)).trans ?_
  rw [W4_v6 m ρ c, W4_keep m ρ c main_arg1 (by decide) (by decide) (by decide) (by decide),
    W4_keep m ρ c main_arg2 (by decide) (by decide) (by decide) (by decide), top_call0 m ρ c]
  rfl

theorem W5_v55 : W5 (F := Ideal) m ρ c (Proc.devRef .tc main_v55) = asRow 𝔞[main_arg8] :=
  (mid1_v55 (W4 m ρ c)).trans (congrArg asRow (W4_keep m ρ c main_arg8 (by decide) (by decide) (by decide) (by decide)))

theorem W5_v9 : W5 (F := Ideal) m ρ c (Proc.devRef .tc main_v9) = narrow 𝔞[main_arg6] :=
  (W5_keep m ρ c main_v9 (by decide)).trans ((W4_of_ne m ρ c main_v9 (by decide)).trans (W3_v9 m ρ c))
theorem W5_v10 : W5 (F := Ideal) m ρ c (Proc.devRef .tc main_v10) = narrow 𝔞[main_arg7] :=
  (W5_keep m ρ c main_v10 (by decide)).trans ((W4_of_ne m ρ c main_v10 (by decide)).trans (W3_v10 m ρ c))

/-! ### The second call and what follows it -/

/-- The second hidden layer. -/
def hid2 : FVec Ideal S100000x128 .f32 :=
  Cert.Sage.layer 100000 (hid1 m c) (agg 𝔞[main_arg1] 𝔞[main_arg2] (hid1 m c)) 𝔞[main_arg6] 𝔞[main_arg7] 𝔞[main_arg8]

theorem call1 : W6 (F := Ideal) m ρ c (Proc.devRef .tc main_v56)
    = Cert.Sage.layer 102400 (PadSlice.padRows (hid1 m c)) (PadSlice.padRows (agg 𝔞[main_arg1] 𝔞[main_arg2] (hid1 m c))) 𝔞[main_arg6] 𝔞[main_arg7] 𝔞[main_arg8] :=
  (W6_arr m ρ c 5).trans ((Region1.final (V5 m ρ) c).trans
    (layer_of (W5_v52 m ρ c) (W5_v54 m ρ c) ((W5_v9 m ρ c).trans (narrow_eq _)) ((W5_v10 m ρ c).trans (narrow_eq _)) (W5_v55 m ρ c)))

theorem top_call1 : top (W6 (F := Ideal) m ρ c (Proc.devRef .tc main_v56)) = hid2 m c :=
  (congrArg top (call1 m ρ c)).trans (PadSlice.slice_layer_pad _ _ _ _ _)

theorem W6_v6 : W6 (F := Ideal) m ρ c (Proc.devRef .tc main_v6) = invDeg 𝔞[main_arg2] :=
  (W6_of_ne m ρ c main_v6 (by decide)).trans ((W5_keep m ρ c main_v6 (by decide)).trans (W4_v6 m ρ c))

/-- A buffer nothing up to the second call's exit writes. -/
theorem W6_keep (r : Ref sig .tc) (h0 : r ∉ wr0) (h1 : r ∉ wr1) (h2 : r ∉ wr2) (hk : ∀ w, Pipeline.arrRef spec0 w ≠ r)
    (h3 : r ∉ wr3) (hk' : ∀ w, Pipeline.arrRef spec1 w ≠ r) :
    W6 (F := Ideal) m ρ c (Proc.devRef .tc r) = 𝔞[r] :=
  (W6_of_ne m ρ c r hk').trans ((W5_keep m ρ c r h3).trans (W4_keep m ρ c r h0 h1 h2 hk))

/-- A buffer the third stretch wrote and nothing since. -/
theorem W6_of_W3 (r : Ref sig .tc) (hk : ∀ w, Pipeline.arrRef spec0 w ≠ r) (h3 : r ∉ wr3) (hk' : ∀ w, Pipeline.arrRef spec1 w ≠ r) :
    W6 (F := Ideal) m ρ c (Proc.devRef .tc r) = W3 m ρ c (Proc.devRef .tc r) :=
  (W6_of_ne m ρ c r hk').trans ((W5_keep m ρ c r h3).trans (W4_of_ne m ρ c r hk))

theorem W7_keep (r : Ref sig .tc) (h : r ∉ wr4) :
    W7 (F := Ideal) m ρ c (Proc.devRef .tc r) = W6 m ρ c (Proc.devRef .tc r) :=
  StableHlo.after_of_writes_sub hostOps2 _ wr4_sub h

theorem W7_v72 : W7 (F := Ideal) m ρ c (Proc.devRef .tc main_v72) = PadSlice.padRows (hid2 m c) :=
  (mid2_v72 (W6 m ρ c)).trans (congrArg PadSlice.padRows (top_call1 m ρ c))

theorem W7_v74 : W7 (F := Ideal) m ρ c (Proc.devRef .tc main_v74) = PadSlice.padRows (agg 𝔞[main_arg1] 𝔞[main_arg2] (hid2 m c)) := by
  refine (mid2_v74 (W6 m ρ c)).trans ?_
  rw [W6_v6 m ρ c, W6_keep m ρ c main_arg1 (by decide) (by decide) (by decide) (by decide) (by decide) (by decide),
    W6_keep m ρ c main_arg2 (by decide) (by decide) (by decide) (by decide) (by decide) (by decide), top_call1 m ρ c]
  rfl

theorem W7_v75 : W7 (F := Ideal) m ρ c (Proc.devRef .tc main_v75) = asRow 𝔞[main_arg11] :=
  (mid2_v75 (W6 m ρ c)).trans (congrArg asRow
    (W6_keep m ρ c main_arg11 (by decide) (by decide) (by decide) (by decide) (by decide) (by decide)))

theorem W7_v76 : W7 (F := Ideal) m ρ c (Proc.devRef .tc main_v76) = asRow (PadSlice.padBias 𝔞[main_arg13]) :=
  (mid2_v76 (W6 m ρ c)).trans (congrArg asRow
    ((W6_of_W3 m ρ c main_v16 (by decide) (by decide) (by decide)).trans (W3_v16 m ρ c)))

theorem W7_v11 : W7 (F := Ideal) m ρ c (Proc.devRef .tc main_v11) = narrow 𝔞[main_arg9] :=
  (W7_keep m ρ c main_v11 (by decide)).trans ((W6_of_W3 m ρ c main_v11 (by decide) (by decide) (by decide)).trans (W3_v11 m ρ c))
theorem W7_v12 : W7 (F := Ideal) m ρ c (Proc.devRef .tc main_v12) = narrow 𝔞[main_arg10] :=
  (W7_keep m ρ c main_v12 (by decide)).trans ((W6_of_W3 m ρ c main_v12 (by decide) (by decide) (by decide)).trans (W3_v12 m ρ c))
theorem W7_v17 : W7 (F := Ideal) m ρ c (Proc.devRef .tc main_v17) = narrow (PadSlice.padCols 𝔞[main_arg12]) :=
  (W7_keep m ρ c main_v17 (by decide)).trans ((W6_of_W3 m ρ c main_v17 (by decide) (by decide) (by decide)).trans (W3_v17 m ρ c))

/-! ### The third call and the result -/

/-- The third call's result array: the head, its matrix and bias widened by zeros, over the third layer of the padded
    second hidden layer and its padded mean. -/
theorem call2 : W8 (F := Ideal) m ρ c (Proc.devRef .tc main_v77)
    = Cert.Sage.head 102400 128
        (Cert.Sage.layer 102400 (PadSlice.padRows (hid2 m c)) (PadSlice.padRows (agg 𝔞[main_arg1] 𝔞[main_arg2] (hid2 m c))) 𝔞[main_arg9] 𝔞[main_arg10] 𝔞[main_arg11])
        (PadSlice.padCols 𝔞[main_arg12]) (PadSlice.padBias 𝔞[main_arg13]) :=
  (W8_arr m ρ c 7).trans ((Region2.final (V7 m ρ) c).trans
    (head_of (layer_of (W7_v72 m ρ c) (W7_v74 m ρ c) ((W7_v11 m ρ c).trans (narrow_eq _)) ((W7_v12 m ρ c).trans (narrow_eq _)) (W7_v75 m ρ c))
      ((W7_v17 m ρ c).trans (narrow_eq _)) (W7_v76 m ρ c)))

theorem result_eq (m : (ℓ : Loc nD τ sig) → Buf (Elt Ideal) ℓ) (ρ : Dev nD → PrngReg) (c : Dev nD) :
    W9 (F := Ideal) m ρ c (Proc.devRef .tc main_v78)
      = Cert.Sage.net (agg (m ((c.tc : Thread nD τ).loc main_arg1)) (m ((c.tc : Thread nD τ).loc main_arg2)))
        (m ((c.tc : Thread nD τ).loc main_arg0))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  refine (post_v78 (W8 m ρ c)).trans ?_
  rw [call2 m ρ c]
  exact (PadSlice.slice_head_pad _ _ _ _ _ _ _).trans rfl

end Cert.KernelIdeal.KValue

end
-- ==== Proof.RefValue.lean ====
/-
  The reference program's result as mathematics: its run ends with one long term of host operations — three times
  max (h · Ws + mean-aggregate(h) · Wn + b, 0), then the linear head. Each matrix product read at an index is the sum over
  the contracted coordinate, each broadcast bias its entry, so each layer is the layer of Spec.lean and the whole term the
  network of Net.lean, with the aggregation carried as one function.
-/
import proofs.«420383_j87892210745356_4_alg».proof.Proof.Gen.ReferenceIdeal.Run
import proofs.«420383_j87892210745356_4_alg».proof.Proof.Gen.ReferenceIdeal.Read
import proofs.«420383_j87892210745356_4_alg».proof.Proof.Net
import proofs.«420383_j87892210745356_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- The mean over incoming edges, as the program computes it: gather the rows of `h` at the edges' sources (a negative
    index counted from the end), add each gathered row into its destination's row, and scale row v by one over
    max (1, number of edges into v). -/
def agg (src dst : IVec S1600000 32) (h : FVec Ideal S100000x128 .f32) : FVec Ideal S100000x128 .f32 :=
  mulf (F := Ideal) (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (Host.divf (broadcastInDim S100000 ![] bcast_S_S100000 (constant S_ .f32 0x3F800000#32))
          (maximumf (broadcastInDim S100000 ![] bcast_S_S100000 (id (constant S_ .f32 0x3F800000#32)))
            (Host.scatterAdd scatter_S100000_S1600000x1_S1600000_n_0_0_1
              (broadcastInDim S100000 ![] bcast_S_S100000 (constant S_ .f32 0x00000000#32))
              (broadcastInDim S1600000x1 ![0] bcast_S1600000_S1600000x1_0 dst)
              (broadcastInDim S1600000 ![] bcast_S_S1600000 (constant S_ .f32 0x3F800000#32)))))))

/-- One layer as the program writes it: the product of the features `h` with `ws` plus the product of the aggregated
    features `a` with `wn`, plus the bias row `b` repeated down the rows, and the maximum of that with the zero array. -/
def refLayer (a h : FVec Ideal S100000x128 .f32) (ws wn : FVec Ideal S128x128 .f32) (b : FVec Ideal S128 .f32) :
    FVec Ideal S100000x128 .f32 :=
  maximumf (addf (addf (Host.dotGeneral (F := Ideal) dot_S100000x128_S128x128_S100000x128_1_0_0_1_n_n none h ws)
        (Host.dotGeneral (F := Ideal) dot_S100000x128_S128x128_S100000x128_1_0_0_1_n_n none a wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The classifier head as the program writes it: the product with the 128 × 64 matrix plus the bias row repeated down the rows. -/
def refHead (h : FVec Ideal S100000x128 .f32) (w : FVec Ideal S128x64 .f32) (b : FVec Ideal S64 .f32) :
    FVec Ideal S100000x64 .f32 :=
  addf (Host.dotGeneral (F := Ideal) dot_S100000x128_S128x64_S100000x64_1_0_0_1_n_n none h w)
    (broadcastInDim S100000x64 ![0, 1] bcast_S1x64_S100000x64_0_1 (broadcastInDim S1x64 ![1] bcast_S64_S1x64_1 b))

/-- A layer applied to features `h` and their own aggregate. -/
def refStep (src dst : IVec S1600000 32) (h : FVec Ideal S100000x128 .f32) (ws wn : FVec Ideal S128x128 .f32)
    (b : FVec Ideal S128 .f32) : FVec Ideal S100000x128 .f32 :=
  refLayer (agg src dst h) h ws wn b

/-- The whole program: three layers, each fed the previous one's result and its aggregate, then the head. -/
def refNet (src dst : IVec S1600000 32) (x : FVec Ideal S100000x128 .f32)
    (ws0 wn0 : FVec Ideal S128x128 .f32) (b0 : FVec Ideal S128 .f32)
    (ws1 wn1 : FVec Ideal S128x128 .f32) (b1 : FVec Ideal S128 .f32)
    (ws2 wn2 : FVec Ideal S128x128 .f32) (b2 : FVec Ideal S128 .f32)
    (wfc : FVec Ideal S128x64 .f32) (bfc : FVec Ideal S64 .f32) : FVec Ideal S100000x64 .f32 :=
  refHead (refStep src dst (refStep src dst (refStep src dst x ws0 wn0 b0) ws1 wn1 b1) ws2 wn2 b2) wfc bfc

/-- The bias row repeated down the rows reads, at (r, j), the bias at j. -/
theorem bias128_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = b (ix1 j) := by
  refine (broadcastInDim_apply _ bcast_S1x128_S100000x128_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (128 : Nat) = 1 then 0 else j.val; rw [if_neg (by decide)]
  · exact broadcastInDim_apply _ bcast_S128_S1x128_1 b (ix2 (0 : Fin 1) j) (ix1 j) (fun a => match a with
      | ⟨0, _⟩ => by show j.val = if (128 : Nat) = 1 then 0 else j.val; rw [if_neg (by decide)])

/-- The same for the head's 64-entry bias row. -/
theorem bias64_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  refine (broadcastInDim_apply _ bcast_S1x64_S100000x64_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
  · exact broadcastInDim_apply _ bcast_S64_S1x64_1 b (ix2 (0 : Fin 1) j) (ix1 j) (fun a => match a with
      | ⟨0, _⟩ => by show j.val = if (64 : Nat) = 1 then 0 else j.val; rw [if_neg (by decide)])

/-- The zero array reads the extended real 0 everywhere. -/
theorem zeros_apply (i : S100000x128.Idx) :
    broadcastInDim S100000x128 ![] bcast_S_S100000x128 (constant (F := Ideal) S_ .f32 0x00000000#32) i = (0 : EReal) := by
  refine (broadcastInDim_apply _ bcast_S_S100000x128 _ i ix0 (fun a => a.elim0)).trans ?_
  rw [constant_apply, Ideal.ofBits_zero_f32]

/-- The program's layer is the layer of the specification: entry (r, j) is
    max (∑ₖ h (r, k) · ws (k, j) + ∑ₖ a (r, k) · wn (k, j) + b j, 0). -/
theorem refLayer_eq (a h : FVec Ideal S100000x128 .f32) (ws wn : FVec Ideal S128x128 .f32) (b : FVec Ideal S128 .f32) :
    refLayer a h ws wn b = Cert.Sage.layer 100000 h a ws wn b := by
  funext i
  obtain ⟨r, j, rfl⟩ : ∃ (r : Fin 100000) (j : Fin 128), i = ix2 r j := ⟨i 0, i 1, eq_ix2 i⟩
  have e1 : Host.dotGeneral (F := Ideal) dot_S100000x128_S128x128_S100000x128_1_0_0_1_n_n none h ws (ix2 r j)
      = ∑ k : Fin 128, (h (ix2 r k) : EReal) * (ws (ix2 k j) : EReal) :=
    Cert.Lib.PlainDot.dotGeneral_plain_ix2 100000 128 128 none .single h ws r j
  have e2 : Host.dotGeneral (F := Ideal) dot_S100000x128_S128x128_S100000x128_1_0_0_1_n_n none a wn (ix2 r j)
      = ∑ k : Fin 128, (a (ix2 r k) : EReal) * (wn (ix2 k j) : EReal) :=
    Cert.Lib.PlainDot.dotGeneral_plain_ix2 100000 128 128 none .single a wn r j
  unfold refLayer Cert.Sage.layer
  rw [maximumf_apply, addf_apply, addf_apply, e1, e2, bias128_apply, zeros_apply]

/-- The program's head is the head of the specification: entry (r, j) is ∑ₖ h (r, k) · w (k, j) + b j. -/
theorem refHead_eq (h : FVec Ideal S100000x128 .f32) (w : FVec Ideal S128x64 .f32) (b : FVec Ideal S64 .f32) :
    refHead h w b = Cert.Sage.head 100000 64 h w b := by
  funext i
  obtain ⟨r, j, rfl⟩ : ∃ (r : Fin 100000) (j : Fin 64), i = ix2 r j := ⟨i 0, i 1, eq_ix2 i⟩
  have e1 : Host.dotGeneral (F := Ideal) dot_S100000x128_S128x64_S100000x64_1_0_0_1_n_n none h w (ix2 r j)
      = ∑ k : Fin 128, (h (ix2 r k) : EReal) * (w (ix2 k j) : EReal) :=
    Cert.Lib.PlainDot.dotGeneral_plain_ix2 100000 128 64 none .single h w r j
  unfold refHead Cert.Sage.head
  rw [addf_apply, e1, bias64_apply]

/-- A layer fed its own aggregate is the specification's layer at (h, agg h). -/
theorem refStep_eq (src dst : IVec S1600000 32) (h : FVec Ideal S100000x128 .f32) (ws wn : FVec Ideal S128x128 .f32)
    (b : FVec Ideal S128 .f32) :
    refStep src dst h ws wn b = Cert.Sage.layer 100000 h (agg src dst h) ws wn b :=
  refLayer_eq (agg src dst h) h ws wn b

/-- Three layers and the head, each replaced by the specification's: the network with `agg src dst` as its aggregation. -/
theorem refNet_eq (src dst : IVec S1600000 32) (x : FVec Ideal S100000x128 .f32)
    (ws0 wn0 : FVec Ideal S128x128 .f32) (b0 : FVec Ideal S128 .f32)
    (ws1 wn1 : FVec Ideal S128x128 .f32) (b1 : FVec Ideal S128 .f32)
    (ws2 wn2 : FVec Ideal S128x128 .f32) (b2 : FVec Ideal S128 .f32)
    (wfc : FVec Ideal S128x64 .f32) (bfc : FVec Ideal S64 .f32) :
    refNet src dst x ws0 wn0 b0 ws1 wn1 b1 ws2 wn2 b2 wfc bfc
      = Cert.Sage.net (agg src dst) x ws0 wn0 b0 ws1 wn1 b1 ws2 wn2 b2 wfc bfc := by
  unfold refNet Cert.Sage.net
  rw [refHead_eq, refStep_eq, refStep_eq, refStep_eq]

/-- The program's result term is `refNet` of the arguments' contents: the same operations, grouped by layer. -/
theorem res_eq_refNet (m : (ℓ : Loc nD τ sig) → Buf (Elt Ideal) ℓ) (c : Dev nD) :
    Cert.ReferenceIdeal.Value.res_main_v70 (F := Ideal) m c
      = refNet (m ((c.tc : Thread nD τ).loc main_arg1)) (m ((c.tc : Thread nD τ).loc main_arg2))
        (m ((c.tc : Thread nD τ).loc main_arg0))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  unfold Cert.ReferenceIdeal.Value.res_main_v70 refNet refStep refHead refLayer agg
  rfl

theorem result_eq (m : (ℓ : Loc nD τ sig) → Buf (Elt Ideal) ℓ) (c : Dev nD) :
    Cert.ReferenceIdeal.Value.res_main_v70 (F := Ideal) m c
      = Cert.Sage.net (agg (m ((c.tc : Thread nD τ).loc main_arg1)) (m ((c.tc : Thread nD τ).loc main_arg2)))
        (m ((c.tc : Thread nD τ).loc main_arg0))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) :=
  (res_eq_refNet m c).trans (refNet_eq _ _ _ _ _ _ _ _ _ _ _ _ _ _)

end Cert.ReferenceIdeal.RefValue

end
-- ==== Proof.lean ====
/-
  The certificate: a three-layer mean-aggregating graph network with a linear head, computed by three blocked matrix kernels
  among host gathers and scatter-adds, equals its plain reference over the extended reals.

  Each kernel call pads its two feature operands with 2400 zero rows to 102400 rows, computes
  max (x · Ws + a · Wn + b, 0) block by block (1280 rows a block, 80 blocks; the last call also multiplies by the head's
  matrix, padded with 64 zero columns, and adds the head's padded bias), and the host cuts the first 100000 rows (and, at
  the end, the first 64 columns) back out. Row r of such a product reads row r of the operands only, so the padding rows
  never reach a kept row, and column j < 64 of the padded head reads column j of the head's matrix and entry j of its bias;
  the weights' change of float format on the way in is the identity over the reals. The aggregation (gather, scatter-add,
  degree scaling) is the same host computation in both programs and is carried as one function. No law of arithmetic
  beyond reading sums index by index is used, so the finiteness of the inputs is never opened.

  Modules: Spec and Net (the mathematics), KernelRun (the kernel program's run with the result buffer reported),
  Region0 / Region1 / Region2 (what each kernel call leaves in its output array), KernelValue (the host operations between
  the calls, read back to the arguments), RefValue (the reference's result as the same function).
-/
import proofs.«420383_j87892210745356_4_alg».proof.Defs
import proofs.«420383_j87892210745356_4_alg».proof.Proof.Gen.Kernel
import proofs.«420383_j87892210745356_4_alg».proof.Proof.Gen.Kernel.Skeleton
import proofs.«420383_j87892210745356_4_alg».proof.Proof.Gen.Kernel.Launch
import proofs.«420383_j87892210745356_4_alg».proof.Proof.Gen.Kernel.Points
import proofs.«420383_j87892210745356_4_alg».proof.Proof.Gen.Kernel.Frame
import proofs.«420383_j87892210745356_4_alg».proof.Proof.Gen.KernelIdeal
import proofs.«420383_j87892210745356_4_alg».proof.Proof.Gen.KernelIdeal.Skeleton
import proofs.«420383_j87892210745356_4_alg».proof.Proof.Gen.KernelIdeal.Launch
import proofs.«420383_j87892210745356_4_alg».proof.Proof.Gen.KernelIdeal.Points
import proofs.«420383_j87892210745356_4_alg».proof.Proof.Gen.KernelIdeal.Frame
import proofs.«420383_j87892210745356_4_alg».proof.Proof.Gen.ReferenceIdeal
import proofs.«420383_j87892210745356_4_alg».proof.Proof.Gen.ReferenceIdeal.Run
import proofs.«420383_j87892210745356_4_alg».proof.Proof.Gen.Pre_finite_inputs
import proofs.«420383_j87892210745356_4_alg».proof.Proof.KernelRun
import proofs.«420383_j87892210745356_4_alg».proof.Proof.KernelValue
import proofs.«420383_j87892210745356_4_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs aggregate by the same host operations. -/
theorem agg_eq : Cert.ReferenceIdeal.RefValue.agg = Cert.KernelIdeal.KValue.agg := rfl

/-- Both programs end with the network's value of the arguments, which agree. -/
theorem algebraic : Cert.algebraic_KernelIdeal_ReferenceIdeal := by
  intro m ρ m' ρ' _ hagree
  refine ⟨fun c => Cert.Sage.net (Cert.KernelIdeal.KValue.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.KValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.RefValue.result_eq, agg_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
